-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v19_0)) (v1 : (c : Dev Cert.KernelIdeal.nD) → Buf (Elt Ideal) ((c.tc : Thread Cert.KernelIdeal.nD Cert.KernelIdeal.τ).loc Cert.KernelIdeal.main_v19_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19_0) = v0 c
          ∧ r.2.mem ((c.tc : Thread Cert.KernelIdeal.nD Cert.KernelIdeal.τ).loc Cert.KernelIdeal.main_v19_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x64 : Shape := ⟨2, ![200000, 64]⟩
abbrev S200000x131 : Shape := ⟨2, ![200000, 131]⟩
abbrev S200000x3 : Shape := ⟨2, ![200000, 3]⟩
abbrev S256x195 : Shape := ⟨2, ![256, 195]⟩
abbrev S256 : Shape := ⟨1, ![256]⟩
abbrev S256x131 : Shape := ⟨2, ![256, 131]⟩
abbrev S_ : Shape := ⟨0, ![]⟩

class Facts : Prop where
  bcast_S_S200000x64 : S_.BroadcastsInDim S200000x64 (![] : Fin 0 → Fin S200000x64.rank)
  reducesTo_S200000x64_S_d0_1 : S200000x64.ReducesTo [0, 1] S_
  h_S_ : 0 < S_.numel
  bcast_S_S200000x131 : S_.BroadcastsInDim S200000x131 (![] : Fin 0 → Fin S200000x131.rank)
  reducesTo_S200000x131_S_d0_1 : S200000x131.ReducesTo [0, 1] S_
  bcast_S_S256x195 : S_.BroadcastsInDim S256x195 (![] : Fin 0 → Fin S256x195.rank)
  reducesTo_S256x195_S_d0_1 : S256x195.ReducesTo [0, 1] S_
  bcast_S_S256 : S_.BroadcastsInDim S256 (![] : Fin 0 → Fin S256.rank)
  reducesTo_S256_S_d0 : S256.ReducesTo [0] S_
  bcast_S_S256x131 : S_.BroadcastsInDim S256x131 (![] : Fin 0 → Fin S256x131.rank)
  reducesTo_S256x131_S_d0_1 : S256x131.ReducesTo [0, 1] S_
  bcast_S_S200000x3 : S_.BroadcastsInDim S200000x3 (![] : Fin 0 → Fin S200000x3.rank)
  reducesTo_S200000x3_S_d0_1 : S200000x3.ReducesTo [0, 1] S_

variable [Facts]

def fn_part2 {F : FTy → Type} [FloatOps F] (main_v28 : IVec S_ 1) (main_v33 : IVec S200000x3 1) : IVec S_ 1 :=
  let main_c_12 : IVec S_ 1 := constantI S_ 1 1#1
  let main_v34 : IVec S_ 1 := (fun x v => Host.reduce IntOp.andi x v reducesTo_S200000x3_S_d0_1 h_S_) main_v33 main_c_12
  let main_v35 : IVec S_ 1 := andi main_v28 main_v34
  main_v35

def fn_part1 {F : FTy → Type} [FloatOps F] (main_arg2 : IVec S200000x3 32) (main_arg5 : FVec F S256x131 .f32) (main_arg6 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x131 .f32 := Host.absf main_arg5
  let main_cst_6 : FVec F S_ .f32 := constant S_ .f32 0x7F800000#32
  let main_v20 : FVec F S256x131 .f32 := broadcastInDim S256x131 ![] bcast_S_S256x131 main_cst_6
  let main_v21 : IVec S256x131 1 := cmpf .olt main_v19 main_v20
  let main_c_7 : IVec S_ 1 := constantI S_ 1 1#1
  let main_v22 : IVec S_ 1 := (fun x v => Host.reduce IntOp.andi x v reducesTo_S256x131_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_c_10 : IVec S_ 32 := constantI S_ 32 0#32
  let main_v29 : IVec S200000x3 32 := broadcastInDim S200000x3 ![] bcast_S_S200000x3 main_c_10
  let main_v30 : IVec S200000x3 1 := cmpi .sge main_arg2 main_v29
  let main_c_11 : IVec S_ 32 := constantI S_ 32 200000#32
  let main_v31 : IVec S200000x3 32 := broadcastInDim S200000x3 ![] bcast_S_S200000x3 main_c_11
  let main_v32 : IVec S200000x3 1 := cmpi .slt main_arg2 main_v31
  let main_v33 : IVec S200000x3 1 := andi main_v30 main_v32
  fn_part2 (F := F) main_v28 main_v33

def fn {F : FTy → Type} [FloatOps F] (main_arg0 : FVec F S200000x64 .f32) (main_arg1 : FVec F S200000x131 .f32) (main_arg2 : IVec S200000x3 32) (main_arg3 : FVec F S256x195 .f32) (main_arg4 : FVec F S256 .f32) (main_arg5 : FVec F S256x131 .f32) (main_arg6 : FVec F S256 .f32) : IVec S_ 1 :=
  let main_v0 : FVec F S200000x64 .f32 := Host.absf main_arg0
  let main_cst : FVec F S_ .f32 := constant S_ .f32 0x7F800000#32
  let main_v1 : FVec F S200000x64 .f32 := broadcastInDim S200000x64 ![] bcast_S_S200000x64 main_cst
  let main_v2 : IVec S200000x64 1 := cmpf .olt main_v0 main_v1
  let main_c : IVec S_ 1 := constantI S_ 1 1#1
  let main_v3 : IVec S_ 1 := (fun x v => Host.reduce IntOp.andi x v reducesTo_S200000x64_S_d0_1 h_S_) main_v2 main_c
  let main_v4 : FVec F S200000x131 .f32 := Host.absf main_arg1
  let main_cst_0 : FVec F S_ .f32 := constant S_ .f32 0x7F800000#32
  let main_v5 : FVec F S200000x131 .f32 := broadcastInDim S200000x131 ![] bcast_S_S200000x131 main_cst_0
  let main_v6 : IVec S200000x131 1 := cmpf .olt main_v4 main_v5
  let main_c_1 : IVec S_ 1 := constantI S_ 1 1#1
  let main_v7 : IVec S_ 1 := (fun x v => Host.reduce IntOp.andi x v reducesTo_S200000x131_S_d0_1 h_S_) main_v6 main_c_1
  let main_v8 : IVec S_ 1 := andi main_v3 main_v7
  let main_v9 : FVec F S256x195 .f32 := Host.absf main_arg3
  let main_cst_2 : FVec F S_ .f32 := constant S_ .f32 0x7F800000#32
  let main_v10 : FVec F S256x195 .f32 := broadcastInDim S256x195 ![] bcast_S_S256x195 main_cst_2
  let main_v11 : IVec S256x195 1 := cmpf .olt main_v9 main_v10
  let main_c_3 : IVec S_ 1 := constantI S_ 1 1#1
  let main_v12 : IVec S_ 1 := (fun x v => Host.reduce IntOp.andi x v reducesTo_S256x195_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg2 main_arg5 main_arg6 main_v13 main_v16
-- ==== Kernel.lean ====
abbrev S200000x64 : Shape := ⟨2, ![200000, 64]⟩
abbrev S200000x131 : Shape := ⟨2, ![200000, 131]⟩
abbrev S200000x3 : Shape := ⟨2, ![200000, 3]⟩
abbrev S256x195 : Shape := ⟨2, ![256, 195]⟩
abbrev S256 : Shape := ⟨1, ![256]⟩
abbrev S256x131 : Shape := ⟨2, ![256, 131]⟩
abbrev S_ : Shape := ⟨0, ![]⟩
abbrev S200000x1 : Shape := ⟨2, ![200000, 1]⟩
abbrev S200000 : Shape := ⟨1, ![200000]⟩
abbrev S1 : Shape := ⟨1, ![1]⟩
abbrev S1x1 : Shape := ⟨2, ![1, 1]⟩
abbrev S256x64 : Shape := ⟨2, ![256, 64]⟩
abbrev S64x256 : Shape := ⟨2, ![64, 256]⟩
abbrev S131x256 : Shape := ⟨2, ![131, 256]⟩
abbrev S1x256 : Shape := ⟨2, ![1, 256]⟩
abbrev S200000x256 : Shape := ⟨2, ![200000, 256]⟩
abbrev S2000x64 : Shape := ⟨2, ![2000, 64]⟩
abbrev S2000x131 : Shape := ⟨2, ![2000, 131]⟩
abbrev S2000x256 : Shape := ⟨2, ![2000, 256]⟩

abbrev nBuf : Space → Nat
  | .hbm => 101
  | .vmem => 15
  | .smem => 0
  | _ => 0

abbrev bufTy : (tb : Table) → Fin (tcTables nBuf tb) → BufTy
  | .hbm, ⟨0, _⟩ => ⟨S200000x64, .f32⟩
  | .hbm, ⟨1, _⟩ => ⟨S200000x131, .f32⟩
  | .hbm, ⟨2, _⟩ => ⟨S200000x3, .i32⟩
  | .hbm, ⟨3, _⟩ => ⟨S256x195, .f32⟩
  | .hbm, ⟨4, _⟩ => ⟨S256, .f32⟩
  | .hbm, ⟨5, _⟩ => ⟨S256x131, .f32⟩
  | .hbm, ⟨6, _⟩ => ⟨S256, .f32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S200000x3, .i32⟩
  | .hbm, ⟨11, _⟩ => ⟨S200000x3, .i32⟩
  | .hbm, ⟨12, _⟩ => ⟨S_, .i32⟩
  | .hbm, ⟨13, _⟩ => ⟨S200000x3, .i32⟩
  | .hbm, ⟨14, _⟩ => ⟨S200000x3, .i32⟩
  | .hbm, ⟨15, _⟩ => ⟨S200000x1, .i32⟩
  | .hbm, ⟨16, _⟩ => ⟨S200000, .i32⟩
  | .hbm, ⟨17, _⟩ => ⟨S_, .i32⟩
  | .hbm, ⟨18, _⟩ => ⟨S200000, .i32⟩
  | .hbm, ⟨19, _⟩ => ⟨S200000, .i1⟩
  | .hbm, ⟨20, _⟩ => ⟨S_, .i32⟩
  | .hbm, ⟨21, _⟩ => ⟨S200000, .i32⟩
  | .hbm, ⟨22, _⟩ => ⟨S200000, .i32⟩
  | .hbm, ⟨23, _⟩ => ⟨S200000, .i32⟩
  | .hbm, ⟨24, _⟩ => ⟨S200000x1, .i32⟩
  | .hbm, ⟨25, _⟩ => ⟨S1, .i32⟩
  | .hbm, ⟨26, _⟩ => ⟨S_, .i32⟩
  | .hbm, ⟨27, _⟩ => ⟨S200000x1, .i32⟩
  | .hbm, ⟨28, _⟩ => ⟨S200000x1, .i1⟩
  | .hbm, ⟨29, _⟩ => ⟨S1x1, .i32⟩
  | .hbm, ⟨30, _⟩ => ⟨S200000x1, .i32⟩
  | .hbm, ⟨31, _⟩ => ⟨S200000x1, .i1⟩
  | .hbm, ⟨32, _⟩ => ⟨S200000x1, .i1⟩
  | .hbm, ⟨33, _⟩ => ⟨S_, .i1⟩
  | .hbm, ⟨34, _⟩ => ⟨S200000, .i1⟩
  | .hbm, ⟨35, _⟩ => ⟨S200000x131, .f32⟩
  | .hbm, ⟨36, _⟩ => ⟨S200000x131, .i1⟩
  | .hbm, ⟨37, _⟩ => ⟨S_, .f32⟩
  | .hbm, ⟨38, _⟩ => ⟨S200000x131, .f32⟩
  | .hbm, ⟨39, _⟩ => ⟨S200000x131, .f32⟩
  | .hbm, ⟨40, _⟩ => ⟨S200000x1, .i32⟩
  | .hbm, ⟨41, _⟩ => ⟨S200000, .i32⟩
  | .hbm, ⟨42, _⟩ => ⟨S_, .i32⟩
  | .hbm, ⟨43, _⟩ => ⟨S200000, .i32⟩
  | .hbm, ⟨44, _⟩ => ⟨S200000, .i1⟩
  | .hbm, ⟨45, _⟩ => ⟨S_, .i32⟩
  | .hbm, ⟨46, _⟩ => ⟨S200000, .i32⟩
  | .hbm, ⟨47, _⟩ => ⟨S200000, .i32⟩
  | .hbm, ⟨48, _⟩ => ⟨S200000, .i32⟩
  | .hbm, ⟨49, _⟩ => ⟨S200000x1, .i32⟩
  | .hbm, ⟨50, _⟩ => ⟨S1, .i32⟩
  | .hbm, ⟨51, _⟩ => ⟨S_, .i32⟩
  | .hbm, ⟨52, _⟩ => ⟨S200000x1, .i32⟩
  | .hbm, ⟨53, _⟩ => ⟨S200000x1, .i1⟩
  | .hbm, ⟨54, _⟩ => ⟨S1x1, .i32⟩
  | .hbm, ⟨55, _⟩ => ⟨S200000x1, .i32⟩
  | .hbm, ⟨56, _⟩ => ⟨S200000x1, .i1⟩
  | .hbm, ⟨57, _⟩ => ⟨S200000x1, .i1⟩
  | .hbm, ⟨58, _⟩ => ⟨S_, .i1⟩
  | .hbm, ⟨59, _⟩ => ⟨S200000, .i1⟩
  | .hbm, ⟨60, _⟩ => ⟨S200000x131, .f32⟩
  | .hbm, ⟨61, _⟩ => ⟨S200000x131, .i1⟩
  | .hbm, ⟨62, _⟩ => ⟨S_, .f32⟩
  | .hbm, ⟨63, _⟩ => ⟨S200000x131, .f32⟩
  | .hbm, ⟨64, _⟩ => ⟨S200000x131, .f32⟩
  | .hbm, ⟨65, _⟩ => ⟨S200000x131, .f32⟩
  | .hbm, ⟨66, _⟩ => ⟨S200000x1, .i32⟩
  | .hbm, ⟨67, _⟩ => ⟨S200000, .i32⟩
  | .hbm, ⟨68, _⟩ => ⟨S_, .i32⟩
  | .hbm, ⟨69, _⟩ => ⟨S200000, .i32⟩
  | .hbm, ⟨70, _⟩ => ⟨S200000, .i1⟩
  | .hbm, ⟨71, _⟩ => ⟨S_, .i32⟩
  | .hbm, ⟨72, _⟩ => ⟨S200000, .i32⟩
  | .hbm, ⟨73, _⟩ => ⟨S200000, .i32⟩
  | .hbm, ⟨74, _⟩ => ⟨S200000, .i32⟩
  | .hbm, ⟨75, _⟩ => ⟨S200000x1, .i32⟩
  | .hbm, ⟨76, _⟩ => ⟨S1, .i32⟩
  | .hbm, ⟨77, _⟩ => ⟨S_, .i32⟩
  | .hbm, ⟨78, _⟩ => ⟨S200000x1, .i32⟩
  | .hbm, ⟨79, _⟩ => ⟨S200000x1, .i1⟩
  | .hbm, ⟨80, _⟩ => ⟨S1x1, .i32⟩
  | .hbm, ⟨81, _⟩ => ⟨S200000x1, .i32⟩
  | .hbm, ⟨82, _⟩ => ⟨S200000x1, .i1⟩
  | .hbm, ⟨83, _⟩ => ⟨S200000x1, .i1⟩
  | .hbm, ⟨84, _⟩ => ⟨S_, .i1⟩
  | .hbm, ⟨85, _⟩ => ⟨S200000, .i1⟩
  | .hbm, ⟨86, _⟩ => ⟨S200000x131, .f32⟩
  | .hbm, ⟨87, _⟩ => ⟨S200000x131, .i1⟩
  | .hbm, ⟨88, _⟩ => ⟨S_, .f32⟩
  | .hbm, ⟨89, _⟩ => ⟨S200000x131, .f32⟩
  | .hbm, ⟨90, _⟩ => ⟨S200000x131, .f32⟩
  | .hbm, ⟨91, _⟩ => ⟨S200000x131, .f32⟩
  | .hbm, ⟨92, _⟩ => ⟨S256x64, .f32⟩
  | .hbm, ⟨93, _⟩ => ⟨S64x256, .f32⟩
  | .hbm, ⟨94, _⟩ => ⟨S256x131, .f32⟩
  | .hbm, ⟨95, _⟩ => ⟨S131x256, .f32⟩
  | .hbm, ⟨96, _⟩ => ⟨S131x256, .f32⟩
  | .hbm, ⟨97, _⟩ => ⟨S1x256, .f32⟩
  | .hbm, ⟨98, _⟩ => ⟨S1x256, .f32⟩
  | .hbm, ⟨99, _⟩ => ⟨S200000x256, .f32⟩
  | .hbm, ⟨100, _⟩ => ⟨S200000x256, .f32⟩
  | .local _ .vmem, ⟨0, _⟩ => ⟨S2000x64, .f32⟩
  | .local _ .vmem, ⟨1, _⟩ => ⟨S2000x64, .f32⟩
  | .local _ .vmem, ⟨2, _⟩ => ⟨S2000x131, .f32⟩
  | .local _ .vmem, ⟨3, _⟩ => ⟨S2000x131, .f32⟩
  | .local _ .vmem, ⟨4, _⟩ => ⟨S2000x131, .f32⟩
  | .local _ .vmem, ⟨5, _⟩ => ⟨S2000x131, .f32⟩
  | .local _ .vmem, ⟨6, _⟩ => ⟨S64x256, .f32⟩
  | .local _ .vmem, ⟨7, _⟩ => ⟨S131x256, .f32⟩
  | .local _ .vmem, ⟨8, _⟩ => ⟨S131x256, .f32⟩
  | .local _ .vmem, ⟨9, _⟩ => ⟨S1x256, .f32⟩
  | .local _ .vmem, ⟨10, _⟩ => ⟨S1x256, .f32⟩
  | .local _ .vmem, ⟨11, _⟩ => ⟨S2000x256, .f32⟩
  | .local _ .vmem, ⟨12, _⟩ => ⟨S2000x256, .f32⟩
  | .local _ .vmem, ⟨13, _⟩ => ⟨S2000x256, .f32⟩
  | .local _ .vmem, ⟨14, _⟩ => ⟨S2000x256, .f32⟩
  | _, _ => ⟨S200000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_c_0 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_call1_c : Ref sig .tc := ⟨.hbm, 17, rfl⟩
abbrev main_call1_v0 : Ref sig .tc := ⟨.hbm, 18, rfl⟩
abbrev main_call1_v1 : Ref sig .tc := ⟨.hbm, 19, rfl⟩
abbrev main_call1_c_0 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_call1_v5 : Ref sig .tc := ⟨.hbm, 24, rfl⟩
abbrev main_call1_c_1 : Ref sig .tc := ⟨.hbm, 25, rfl⟩
abbrev main_call1_c_2 : Ref sig .tc := ⟨.hbm, 26, rfl⟩
abbrev main_call1_v6 : Ref sig .tc := ⟨.hbm, 27, rfl⟩
abbrev main_call1_v7 : Ref sig .tc := ⟨.hbm, 28, rfl⟩
abbrev main_call1_v8 : Ref sig .tc := ⟨.hbm, 29, rfl⟩
abbrev main_call1_v9 : Ref sig .tc := ⟨.hbm, 30, rfl⟩
abbrev main_call1_v10 : Ref sig .tc := ⟨.hbm, 31, rfl⟩
abbrev main_call1_v11 : Ref sig .tc := ⟨.hbm, 32, rfl⟩
abbrev main_call1_c_3 : Ref sig .tc := ⟨.hbm, 33, rfl⟩
abbrev main_call1_v12 : Ref sig .tc := ⟨.hbm, 34, rfl⟩
abbrev main_call1_v13 : Ref sig .tc := ⟨.hbm, 35, rfl⟩
abbrev main_call1_v14 : Ref sig .tc := ⟨.hbm, 36, rfl⟩
abbrev main_call1_cst : Ref sig .tc := ⟨.hbm, 37, rfl⟩
abbrev main_call1_v15 : Ref sig .tc := ⟨.hbm, 38, rfl⟩
abbrev main_v3 : Ref sig .tc := ⟨.hbm, 39, rfl⟩
abbrev main_v4 : Ref sig .tc := ⟨.hbm, 40, rfl⟩
abbrev main_v5 : Ref sig .tc := ⟨.hbm, 41, rfl⟩
abbrev main_call2_c : Ref sig .tc := ⟨.hbm, 42, rfl⟩
abbrev main_call2_v0 : Ref sig .tc := ⟨.hbm, 43, rfl⟩
abbrev main_call2_v1 : Ref sig .tc := ⟨.hbm, 44, rfl⟩
abbrev main_call2_c_0 : Ref sig .tc := ⟨.hbm, 45, rfl⟩
abbrev main_call2_v2 : Ref sig .tc := ⟨.hbm, 46, rfl⟩
abbrev main_call2_v3 : Ref sig .tc := ⟨.hbm, 47, rfl⟩
abbrev main_call2_v4 : Ref sig .tc := ⟨.hbm, 48, rfl⟩
abbrev main_call2_v5 : Ref sig .tc := ⟨.hbm, 49, rfl⟩
abbrev main_call2_c_1 : Ref sig .tc := ⟨.hbm, 50, rfl⟩
abbrev main_call2_c_2 : Ref sig .tc := ⟨.hbm, 51, rfl⟩
abbrev main_call2_v6 : Ref sig .tc := ⟨.hbm, 52, rfl⟩
abbrev main_call2_v7 : Ref sig .tc := ⟨.hbm, 53, rfl⟩
abbrev main_call2_v8 : Ref sig .tc := ⟨.hbm, 54, rfl⟩
abbrev main_call2_v9 : Ref sig .tc := ⟨.hbm, 55, rfl⟩
abbrev main_call2_v10 : Ref sig .tc := ⟨.hbm, 56, rfl⟩
abbrev main_call2_v11 : Ref sig .tc := ⟨.hbm, 57, rfl⟩
abbrev main_call2_c_3 : Ref sig .tc := ⟨.hbm, 58, rfl⟩
abbrev main_call2_v12 : Ref sig .tc := ⟨.hbm, 59, rfl⟩
abbrev main_call2_v13 : Ref sig .tc := ⟨.hbm, 60, rfl⟩
abbrev main_call2_v14 : Ref sig .tc := ⟨.hbm, 61, rfl⟩
abbrev main_call2_cst : Ref sig .tc := ⟨.hbm, 62, rfl⟩
abbrev main_call2_v15 : Ref sig .tc := ⟨.hbm, 63, rfl⟩
abbrev main_v6 : Ref sig .tc := ⟨.hbm, 64, rfl⟩
abbrev main_v7 : Ref sig .tc := ⟨.hbm, 65, rfl⟩
abbrev main_v8 : Ref sig .tc := ⟨.hbm, 66, rfl⟩
abbrev main_v9 : Ref sig .tc := ⟨.hbm, 67, rfl⟩
abbrev main_call3_c : Ref sig .tc := ⟨.hbm, 68, rfl⟩
abbrev main_call3_v0 : Ref sig .tc := ⟨.hbm, 69, rfl⟩
abbrev main_call3_v1 : Ref sig .tc := ⟨.hbm, 70, rfl⟩
abbrev main_call3_c_0 : Ref sig .tc := ⟨.hbm, 71, rfl⟩
abbrev main_call3_v2 : Ref sig .tc := ⟨.hbm, 72, rfl⟩
abbrev main_call3_v3 : Ref sig .tc := ⟨.hbm, 73, rfl⟩
abbrev main_call3_v4 : Ref sig .tc := ⟨.hbm, 74, rfl⟩
abbrev main_call3_v5 : Ref sig .tc := ⟨.hbm, 75, rfl⟩
abbrev main_call3_c_1 : Ref sig .tc := ⟨.hbm, 76, rfl⟩
abbrev main_call3_c_2 : Ref sig .tc := ⟨.hbm, 77, rfl⟩
abbrev main_call3_v6 : Ref sig .tc := ⟨.hbm, 78, rfl⟩
abbrev main_call3_v7 : Ref sig .tc := ⟨.hbm, 79, rfl⟩
abbrev main_call3_v8 : Ref sig .tc := ⟨.hbm, 80, rfl⟩
abbrev main_call3_v9 : Ref sig .tc := ⟨.hbm, 81, rfl⟩
abbrev main_call3_v10 : Ref sig .tc := ⟨.hbm, 82, rfl⟩
abbrev main_call3_v11 : Ref sig .tc := ⟨.hbm, 83, rfl⟩
abbrev main_call3_c_3 : Ref sig .tc := ⟨.hbm, 84, rfl⟩
abbrev main_call3_v12 : Ref sig .tc := ⟨.hbm, 85, rfl⟩
abbrev main_call3_v13 : Ref sig .tc := ⟨.hbm, 86, rfl⟩
abbrev main_call3_v14 : Ref sig .tc := ⟨.hbm, 87, rfl⟩
abbrev main_call3_cst : Ref sig .tc := ⟨.hbm, 88, rfl⟩
abbrev main_call3_v15 : Ref sig .tc := ⟨.hbm, 89, rfl⟩
abbrev main_v10 : Ref sig .tc := ⟨.hbm, 90, rfl⟩
abbrev main_v11 : Ref sig .tc := ⟨.hbm, 91, rfl⟩
abbrev main_v12 : Ref sig .tc := ⟨.hbm, 92, rfl⟩
abbrev main_v13 : Ref sig .tc := ⟨.hbm, 93, rfl⟩
abbrev main_v14 : Ref sig .tc := ⟨.hbm, 94, rfl⟩
abbrev main_v15 : Ref sig .tc := ⟨.hbm, 95, rfl⟩
abbrev main_v16 : Ref sig .tc := ⟨.hbm, 96, rfl⟩
abbrev main_v17 : Ref sig .tc := ⟨.hbm, 97, rfl⟩
abbrev main_v18 : Ref sig .tc := ⟨.hbm, 98, rfl⟩
abbrev main_v19_0 : Ref sig .tc := ⟨.hbm, 99, rfl⟩
abbrev main_v19_1 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x131 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x131 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S131x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S131x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2000x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2000x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bcast_S_S200000x3 : S_.BroadcastsInDim S200000x3 (![] : Fin 0 → Fin S200000x3.rank)
  slices_S200000x3_S200000x1_0_0 : S200000x3.Slices ![0, 0] S200000x1
  shapeCasts_S200000x1_S200000 : S200000x1.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  bcast_S_S200000x1 : S_.BroadcastsInDim S200000x1 (![] : Fin 0 → Fin S200000x1.rank)
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  reducesTo_S200000x1_S200000_d1 : S200000x1.ReducesTo [1] S200000
  h_S_ : 0 < S_.numel
  bcast_S200000_S200000x131_0 : S200000.BroadcastsInDim S200000x131 (![0] : Fin 1 → Fin S200000x131.rank)
  bcast_S_S200000x131 : S_.BroadcastsInDim S200000x131 (![] : Fin 0 → Fin S200000x131.rank)
  slices_S200000x3_S200000x1_0_1 : S200000x3.Slices ![0, 1] S200000x1
  slices_S200000x3_S200000x1_0_2 : S200000x3.Slices ![0, 2] S200000x1
  slices_S256x195_S256x64_0_0 : S256x195.Slices ![0, 0] S256x64
  transposes_S256x64_S64x256_1_0 : S256x64.Transposes [1, 0] S64x256
  slices_S256x195_S256x131_0_64 : S256x195.Slices ![0, 64] S256x131
  transposes_S256x131_S131x256_1_0 : S256x131.Transposes [1, 0] S131x256
  shapeCasts_S256_S1x256 : S256.ShapeCasts S1x256
  inb_S2000x64_S2000x64_0_0 : ∀ a, (![0, 0] : Fin 2 → Nat) a + S2000x64.size a ≤ S2000x64.size a
  h_S2000x64 : 0 < S2000x64.numel
  inb_S2000x131_S2000x131_0_0 : ∀ a, (![0, 0] : Fin 2 → Nat) a + S2000x131.size a ≤ S2000x131.size a
  h_S2000x131 : 0 < S2000x131.numel
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S131x256_S131x256_0_0 : ∀ a, (![0, 0] : Fin 2 → Nat) a + S131x256.size a ≤ S131x256.size a
  h_S131x256 : 0 < S131x256.numel
  shapeCasts_S131x256_S131x256 : S131x256.ShapeCasts S131x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  shapeCasts_S2000x131_S2000x131 : S2000x131.ShapeCasts S2000x131
  gather_S200000x131_S200000x1_S200000x131_1_0_n_n_0_1_1131_wf : GatherDims.WF S200000x131 S200000x1 S200000x131 [1] [0] [] [0] [] 1 ![1, 131]
  dot_S2000x64_S64x256_S2000x256_1_0_0_1_n_n_wf : DotDims.WF S2000x64 S64x256 S2000x256 [1] [0] [0] [1] [] []
  dot_S2000x131_S131x256_S2000x256_1_0_0_1_n_n_wf : DotDims.WF S2000x131 S131x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S200000x64.size a
  hwx0_0 : ∀ i : grid0.Coords, EltTy.bits .f32 = 32 ∨ (Rect.block (s := S200000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x131.size a ≤ S200000x131.size a
  hwx0_1 : ∀ i : grid0.Coords, EltTy.bits .f32 = 32 ∨ (Rect.block (s := S200000x131) S2000x131.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x131.size a ≤ S200000x131.size a
  hwx0_2 : ∀ i : grid0.Coords, EltTy.bits .f32 = 32 ∨ (Rect.block (s := S200000x131) S2000x131.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x256.size a ≤ S64x256.size a
  hwx0_3 : ∀ i : grid0.Coords, EltTy.bits .f32 = 32 ∨ (Rect.block (s := S64x256) S64x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S131x256.size a ≤ S131x256.size a
  hwx0_4 : ∀ i : grid0.Coords, EltTy.bits .f32 = 32 ∨ (Rect.block (s := S131x256) S131x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S131x256.size a ≤ S131x256.size a
  hwx0_5 : ∀ i : grid0.Coords, EltTy.bits .f32 = 32 ∨ (Rect.block (s := S131x256) S131x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2000x256.size a ≤ S200000x256.size a
  hwx0_8 : ∀ i : grid0.Coords, EltTy.bits .f32 = 32 ∨ (Rect.block (s := S200000x256) S2000x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2000x256.size a ≤ S200000x256.size a
  hwx0_9 : ∀ i : grid0.Coords, EltTy.bits .f32 = 32 ∨ (Rect.block (s := S200000x256) S2000x256.size (cc0_transform_9 i) (hinb0_9 i)).WholeWords (EltTy.packing .f32)

variable [Facts₀]

def gather_S200000x131_S200000x1_S200000x131_1_0_n_n_0_1_1131 : GatherDims S200000x131 S200000x1 S200000x131 where
  offsetDims := [1]
  collapsedSliceDims := [0]
  operandBatchingDims := []
  startIndicesBatchingDims := []
  startIndexMap := [0]
  indexVectorDim := 1
  sliceSizes := ![1, 131]
  wf := gather_S200000x131_S200000x1_S200000x131_1_0_n_n_0_1_1131_wf
def dot_S2000x64_S64x256_S2000x256_1_0_0_1_n_n : DotDims S2000x64 S64x256 S2000x256 where
  lhsContracting := [1]
  rhsContracting := [0]
  lhsNonContracting := [0]
  rhsNonContracting := [1]
  lhsBatch := []
  rhsBatch := []
  wf := dot_S2000x64_S64x256_S2000x256_1_0_0_1_n_n_wf
def dot_S2000x131_S131x256_S2000x256_1_0_0_1_n_n : DotDims S2000x131 S131x256 S2000x256 where
  lhsContracting := [1]
  rhsContracting := [0]
  lhsNonContracting := [0]
  rhsNonContracting := [1]
  lhsBatch := []
  rhsBatch := []
  wf := dot_S2000x131_S131x256_S2000x256_1_0_0_1_n_n_wf

abbrev win0_0 : Pipeline.Window sig grid0 :=
  Pipeline.Window.ofSpec (Memref.whole main_arg0) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2000x131.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S2000x131.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S64x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S131x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S131x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v17) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v18) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v19_0) S2000x256.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v19_1) S2000x256.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S200000x64 : Shape := ⟨2, ![200000, 64]⟩
abbrev S200000x131 : Shape := ⟨2, ![200000, 131]⟩
abbrev S200000x3 : Shape := ⟨2, ![200000, 3]⟩
abbrev S256x195 : Shape := ⟨2, ![256, 195]⟩
abbrev S256 : Shape := ⟨1, ![256]⟩
abbrev S256x131 : Shape := ⟨2, ![256, 131]⟩
abbrev S200000x195 : Shape := ⟨2, ![200000, 195]⟩
abbrev S200000x256 : Shape := ⟨2, ![200000, 256]⟩
abbrev S1x256 : Shape := ⟨2, ![1, 256]⟩
abbrev S_ : Shape := ⟨0, ![]⟩
abbrev S200000x3x1 : Shape := ⟨3, ![200000, 3, 1]⟩
abbrev S200000x3x131 : Shape := ⟨3, ![200000, 3, 131]⟩

abbrev nBuf : Space → Nat
  | .hbm => 31
  | .vmem => 0
  | .smem => 0
  | _ => 0

abbrev bufTy : (tb : Table) → Fin (tcTables nBuf tb) → BufTy
  | .hbm, ⟨0, _⟩ => ⟨S200000x64, .f32⟩
  | .hbm, ⟨1, _⟩ => ⟨S200000x131, .f32⟩
  | .hbm, ⟨2, _⟩ => ⟨S200000x3, .i32⟩
  | .hbm, ⟨3, _⟩ => ⟨S256x195, .f32⟩
  | .hbm, ⟨4, _⟩ => ⟨S256, .f32⟩
  | .hbm, ⟨5, _⟩ => ⟨S256x131, .f32⟩
  | .hbm, ⟨6, _⟩ => ⟨S256, .f32⟩
  | .hbm, ⟨7, _⟩ => ⟨S200000x195, .f32⟩
  | .hbm, ⟨8, _⟩ => ⟨S200000x256, .f32⟩
  | .hbm, ⟨9, _⟩ => ⟨S1x256, .f32⟩
  | .hbm, ⟨10, _⟩ => ⟨S200000x256, .f32⟩
  | .hbm, ⟨11, _⟩ => ⟨S200000x256, .f32⟩
  | .hbm, ⟨12, _⟩ => ⟨S_, .i32⟩
  | .hbm, ⟨13, _⟩ => ⟨S200000x3, .i32⟩
  | .hbm, ⟨14, _⟩ => ⟨S200000x3, .i1⟩
  | .hbm, ⟨15, _⟩ => ⟨S_, .i32⟩
  | .hbm, ⟨16, _⟩ => ⟨S200000x3, .i32⟩
  | .hbm, ⟨17, _⟩ => ⟨S200000x3, .i32⟩
  | .hbm, ⟨18, _⟩ => ⟨S200000x3, .i32⟩
  | .hbm, ⟨19, _⟩ => ⟨S200000x3x1, .i32⟩
  | .hbm, ⟨20, _⟩ => ⟨S200000x3x131, .f32⟩
  | .hbm, ⟨21, _⟩ => ⟨S_, .f32⟩
  | .hbm, ⟨22, _⟩ => ⟨S200000x131, .f32⟩
  | .hbm, ⟨23, _⟩ => ⟨S200000x131, .f32⟩
  | .hbm, ⟨24, _⟩ => ⟨S_, .f32⟩
  | .hbm, ⟨25, _⟩ => ⟨S200000x131, .f32⟩
  | .hbm, ⟨26, _⟩ => ⟨S200000x131, .f32⟩
  | .hbm, ⟨27, _⟩ => ⟨S200000x256, .f32⟩
  | .hbm, ⟨28, _⟩ => ⟨S1x256, .f32⟩
  | .hbm, ⟨29, _⟩ => ⟨S200000x256, .f32⟩
  | .hbm, ⟨30, _⟩ => ⟨S200000x256, .f32⟩
  | _, _ => ⟨S200000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]

class Facts₀ : Prop where
  concatenates_S200000x64_S200000x131_S200000x195_d1 : Shape.Concatenates [S200000x64, S200000x131] S200000x195 1
  bcast_S256_S1x256_1 : S256.BroadcastsInDim S1x256 (![1] : Fin 1 → Fin S1x256.rank)
  bcast_S1x256_S200000x256_0_1 : S1x256.BroadcastsInDim S200000x256 (![0, 1] : Fin 2 → Fin S200000x256.rank)
  bcast_S_S200000x3 : S_.BroadcastsInDim S200000x3 (![] : Fin 0 → Fin S200000x3.rank)
  bcast_S200000x3_S200000x3x1_0_1 : S200000x3.BroadcastsInDim S200000x3x1 (![0, 1] : Fin 2 → Fin S200000x3x1.rank)
  reducesTo_S200000x3x131_S200000x131_d1 : S200000x3x131.ReducesTo [1] S200000x131
  h_S_ : 0 < S_.numel
  bcast_S_S200000x131 : S_.BroadcastsInDim S200000x131 (![] : Fin 0 → Fin S200000x131.rank)
  dot_S200000x195_S256x195_S200000x256_1_1_0_0_n_n_wf : DotDims.WF S200000x195 S256x195 S200000x256 [1] [1] [0] [0] [] []
  gather_S200000x131_S200000x3x1_S200000x3x131_2_0_n_n_0_2_1131_wf : GatherDims.WF S200000x131 S200000x3x1 S200000x3x131 [2] [0] [] [0] [] 2 ![1, 131]
  dot_S200000x131_S256x131_S200000x256_1_1_0_0_n_n_wf : DotDims.WF S200000x131 S256x131 S200000x256 [1] [1] [0] [0] [] []

variable [Facts₀]

def dot_S200000x195_S256x195_S200000x256_1_1_0_0_n_n : DotDims S200000x195 S256x195 S200000x256 where
  lhsContracting := [1]
  rhsContracting := [1]
  lhsNonContracting := [0]
  rhsNonContracting := [0]
  lhsBatch := []
  rhsBatch := []
  wf := dot_S200000x195_S256x195_S200000x256_1_1_0_0_n_n_wf
def gather_S200000x131_S200000x3x1_S200000x3x131_2_0_n_n_0_2_1131 : GatherDims S200000x131 S200000x3x1 S200000x3x131 where
  offsetDims := [2]
  collapsedSliceDims := [0]
  operandBatchingDims := []
  startIndicesBatchingDims := []
  startIndexMap := [0]
  indexVectorDim := 2
  sliceSizes := ![1, 131]
  wf := gather_S200000x131_S200000x3x1_S200000x3x131_2_0_n_n_0_2_1131_wf
def dot_S200000x131_S256x131_S200000x256_1_1_0_0_n_n : DotDims S200000x131 S256x131 S200000x256 where
  lhsContracting := [1]
  rhsContracting := [1]
  lhsNonContracting := [0]
  rhsNonContracting := [0]
  lhsBatch := []
  rhsBatch := []
  wf := dot_S200000x131_S256x131_S200000x256_1_1_0_0_n_n_wf

class Facts : Prop extends Facts₀ where

variable [Facts]
-- ==== Proof.LibPlainDot.lean ====
/-
  The plain matrix product read at an index.

  A dot record with dimension numbers `<[1], [0], [0], [1]>` and no batch axes (an `M × K` by `K × N` product) is the
  library's `DotDims.plain M K N`; at the ideal values both the kernel's matrix unit product into a zero accumulator
  and the host's `dot_general` of such a record, read at the output index `(a, b)`, are the sum over the contracted
  coordinate `c` of `A (a, c) * B (c, b)` on the extended reals. Stated for any record that EQUALS the plain one, so
  that a program's own record is passed with `rfl`.
-/
import Idealize.ShloMosaic.PureOps.Ideal
import Idealize.ShloMosaic.PureOps.Ideal.Laws
import Idealize.ShloMosaic.Lib.ValueIdx
import Idealize.ShloMosaic.Lib.StackMember

noncomputable section

namespace Cert.LibPlainDot

open Idealize.ShloMosaic Idealize.ShloMosaic.ValueIdx

variable {m k n : Nat} {φ₁ φ₂ : FTy}

/-- The host's product of a plain record, at `(a, b)`: `∑ c, A (a, c) * B (c, b)`. -/
theorem dotGeneral_apply (D : DotDims ⟨2, ![m, k]⟩ ⟨2, ![k, n]⟩ ⟨2, ![m, n]⟩) (hD : D = DotDims.plain m k n)
    (prec : Option ContractPrecision) (A : FVec Ideal ⟨2, ![m, k]⟩ φ₁) (B : FVec Ideal ⟨2, ![k, n]⟩ φ₂) (a : Fin m) (b : Fin n) :
    Host.dotGeneral D prec A B (ix2 a b) = ∑ c : Fin k, A (ix2 a c) * B (ix2 c b) := by
  subst hD
  exact StackMember.dotGeneral_plain_apply prec A B a b

/-- The kernel's product of a plain record into the zero accumulator, at `(a, b)`: the same sum. -/
theorem matmul_zero_apply (D : DotDims ⟨2, ![m, k]⟩ ⟨2, ![k, n]⟩ ⟨2, ![m, n]⟩) (hD : D = DotDims.plain m k n)
    (prec : Option ContractPrecision) (A : FVec Ideal ⟨2, ![m, k]⟩ φ₁) (B : FVec Ideal ⟨2, ![k, n]⟩ φ₂) (a : Fin m) (b : Fin n) :
    matmul D prec A B (constant (F := Ideal) ⟨2, ![m, n]⟩ .f32 0x00000000#32) (ix2 a b) = ∑ c : Fin k, A (ix2 a c) * B (ix2 c b) := by
  subst hD
  have h := StackMember.dotGeneral_plain_apply (m := m) (n := n) prec A B a b
  rw [← h]
  show FloatOps.matmul _ prec A B _ (ix2 a b) = FloatOps.dotGeneral _ prec _ A B (ix2 a b)
  rw [Ideal.matmul_constant_zero_apply, Ideal.dotGeneral_apply]

end Cert.LibPlainDot

end
-- ==== Proof.Payload.lean ====
/-
  The kernel body's two stores, read at one element of a 2000-node tile.

  For a tile of 2000 nodes the body holds the tile's spatial block x0 : [2000, 64], its structural block x1 : [2000, 131],
  the tile of neighbour sums xs : [2000, 131], the three weight matrices as the region finds them (already transposed:
  w1 : [64, 256], w2 : [131, 256], wa : [131, 256]) and the two bias rows b1, b2 : [1, 256].
    first store  (p, q) = ( sum_k x0[p, k] * w1[k, q] + sum_k x1[p, k] * w2[k, q] ) + b1[0, q]
    second store (p, q) = sum_k ((x1[p, k] + xs[p, k]) * (1/4)) * wa[k, q] + b2[0, q]
  Each matrix product accumulates into zero, so at an element it is the plain sum over the contracted coordinate; the
  bias row is broadcast down the 2000 rows; the casts between equal shapes are the identity.
-/
import proofs.«406984_j80985903334295_3_alg».proof.Proof.Gen.KernelIdeal.Skeleton
import proofs.«406984_j80985903334295_3_alg».proof.Proof.LibPlainDot
import Idealize.ShloMosaic.Lib.Pipeline.Value
import Idealize.ShloMosaic.Lib.ValueIdx
import Idealize.ShloMosaic.Lib.ValueLayout

noncomputable section

open scoped BigOperators

namespace Cert.MeshKernel

open Cert.KernelIdeal Cert.KernelIdeal.Gen Idealize.ShloMosaic Idealize.ShloMosaic.ValueIdx

/-- The first store at (p, q): the two products' sums and the bias. -/
theorem pay1_apply (x0 : Vec Ideal S2000x64 .f32) (x1 : Vec Ideal S2000x131 .f32) (w1 : Vec Ideal S64x256 .f32)
    (w2 : Vec Ideal S131x256 .f32) (b1 : Vec Ideal S1x256 .f32) (p : Fin 2000) (q : Fin 256) :
    k0_pay1 (F := Ideal) x0 x1 w1 w2 b1 (ix2 p q)
      = (∑ k : Fin 64, x0 (ix2 p k) * w1 (ix2 k q) + ∑ k : Fin 131, x1 (ix2 p k) * w2 (ix2 k q)) + b1 (ix2 (0 : Fin 1) q) := by
  unfold k0_pay1
  simp only [shapeCast_self]
  rw [addf_apply, addf_apply, Cert.LibPlainDot.matmul_zero_apply dot_S2000x64_S64x256_S2000x256_1_0_0_1_n_n rfl,
    Cert.LibPlainDot.matmul_zero_apply dot_S2000x131_S131x256_S2000x256_1_0_0_1_n_n rfl, broadcastTo_1b_ab_apply]

/-- The second store at (p, q): the product of the averaged features with the weights, and the bias. -/
theorem pay2_apply (x1 : Vec Ideal S2000x131 .f32) (xs : Vec Ideal S2000x131 .f32) (wa : Vec Ideal S131x256 .f32)
    (b2 : Vec Ideal S1x256 .f32) (p : Fin 2000) (q : Fin 256) :
    k0_pay2 (F := Ideal) x1 xs wa b2 (ix2 p q)
      = ∑ k : Fin 131, ((x1 (ix2 p k) + xs (ix2 p k)) * Ideal.ofBits .f32 0x3E800000#32) * wa (ix2 k q) + b2 (ix2 (0 : Fin 1) q) := by
  unfold k0_pay2
  simp only [shapeCast_self]
  rw [addf_apply, Cert.LibPlainDot.matmul_zero_apply dot_S2000x131_S131x256_S2000x256_1_0_0_1_n_n rfl, broadcastTo_1b_ab_apply]
  rfl

/-- The first store at any element of the tile. -/
theorem pay1_at (x0 : Vec Ideal S2000x64 .f32) (x1 : Vec Ideal S2000x131 .f32) (w1 : Vec Ideal S64x256 .f32)
    (w2 : Vec Ideal S131x256 .f32) (b1 : Vec Ideal S1x256 .f32) (j : S2000x256.Idx) :
    k0_pay1 (F := Ideal) x0 x1 w1 w2 b1 j
      = (∑ k : Fin 64, x0 (ix2 (j 0) k) * w1 (ix2 k (j 1)) + ∑ k : Fin 131, x1 (ix2 (j 0) k) * w2 (ix2 k (j 1)))
        + b1 (ix2 (0 : Fin 1) (j 1)) := by
  exact (congrArg (k0_pay1 (F := Ideal) x0 x1 w1 w2 b1) (eq_ix2 j)).trans (pay1_apply x0 x1 w1 w2 b1 (j 0) (j 1))

/-- The second store at any element of the tile. -/
theorem pay2_at (x1 : Vec Ideal S2000x131 .f32) (xs : Vec Ideal S2000x131 .f32) (wa : Vec Ideal S131x256 .f32)
    (b2 : Vec Ideal S1x256 .f32) (j : S2000x256.Idx) :
    k0_pay2 (F := Ideal) x1 xs wa b2 j
      = ∑ k : Fin 131, ((x1 (ix2 (j 0) k) + xs (ix2 (j 0) k)) * Ideal.ofBits .f32 0x3E800000#32) * wa (ix2 k (j 1))
        + b2 (ix2 (0 : Fin 1) (j 1)) := by
  exact (congrArg (k0_pay2 (F := Ideal) x1 xs wa b2) (eq_ix2 j)).trans (pay2_apply x1 xs wa b2 (j 0) (j 1))

end Cert.MeshKernel

end
-- ==== Proof.KernelTiles.lean ====
/-
  The tiles of the region's input arrays.

  The region walks 100 tiles of 2000 nodes. At tile t it fetches rows 2000 t .. 2000 t + 1999 of the spatial array, of the
  structural array and of the neighbour-sum array, and sees the three weight matrices and the two bias rows whole.
  Here: where each window's block sits at tile t (decided once over the 100 tiles), and each input tile's element read
  off its array — element (p, k) of a row tile is the array at row 2000 t + p and column k; an element of a whole block is
  the array's element.
-/
import proofs.«406984_j80985903334295_3_alg».proof.Proof.Gen.KernelIdeal.Value
import proofs.«406984_j80985903334295_3_alg».proof.Proof.Payload
import Idealize.ShloMosaic.Lib.Pipeline.Value
import Idealize.ShloMosaic.Lib.ValueIdx

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.MeshKernel

open Cert.KernelIdeal Cert.KernelIdeal.Gen Cert.KernelIdeal.Value

variable (m : (ℓ : Loc nD τ sig) → Buf (Elt Ideal) ℓ) (ρ : Dev nD → PrngReg)

theorem hz : (![0, 0] : Fin 2 → Nat) = fun _ => 0 := funext fun a => by fin_cases a <;> rfl

/-- The index maps over the grid: the row-tiled windows (the three feature arrays, the two results) are at block
    (t, 0) at tile t; the weights and biases stay at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0
    ∧ win0_9.index t (0 : Fin 2) = t.val ∧ win0_9.index t (1 : Fin 2) = 0 :=
  (by decide +kernel : ∀ t : Fin grid0.N, _)

/-! ## Each input tile read off its array -/

/-- The spatial tile at t, element (p, k), is the spatial array at row 2000 t + p. -/
theorem blk0_read (c : Dev nD) (t : Fin cfg0.N) (y : S2000x64.Idx) (i : S200000x64.Idx)
    (h0 : (i 0).val = t.val * 2000 + (y 0).val) (h1 : (i 1).val = (y 1).val) :
    iblk m c 0 t y = V m c main_arg0 i := by
  obtain ⟨e0, e1, -⟩ := idx_facts t
  unfold iblk
  rw [View.read_apply]
  show V m c main_arg0 _ = V m c main_arg0 i
  refine congrArg (V m c main_arg0) (funext fun a => Fin.ext ?_)
  match a with
  | ⟨0, _⟩ => show win0_0.index t (0 : Fin 2) * 2000 + 1 * (y 0).val = (i 0).val; rw [e0, h0]; omega
  | ⟨1, _⟩ => show win0_0.index t (1 : Fin 2) * 64 + 1 * (y 1).val = (i 1).val; rw [e1, h1]; omega

/-- The structural tile at t, element (p, k), is the structural array at row 2000 t + p. -/
theorem blk1_read (c : Dev nD) (t : Fin cfg0.N) (y : S2000x131.Idx) (i : S200000x131.Idx)
    (h0 : (i 0).val = t.val * 2000 + (y 0).val) (h1 : (i 1).val = (y 1).val) :
    iblk m c 1 t y = V m c main_arg1 i := by
  obtain ⟨-, -, e0, e1, -⟩ := idx_facts t
  unfold iblk
  rw [View.read_apply]
  show V m c main_arg1 _ = V m c main_arg1 i
  refine congrArg (V m c main_arg1) (funext fun a => Fin.ext ?_)
  match a with
  | ⟨0, _⟩ => show win0_1.index t (0 : Fin 2) * 2000 + 1 * (y 0).val = (i 0).val; rw [e0, h0]; omega
  | ⟨1, _⟩ => show win0_1.index t (1 : Fin 2) * 131 + 1 * (y 1).val = (i 1).val; rw [e1, h1]; omega

/-- The neighbour-sum tile at t, element (p, k), is the neighbour-sum array at row 2000 t + p. -/
theorem blk2_read (c : Dev nD) (t : Fin cfg0.N) (y : S2000x131.Idx) (i : S200000x131.Idx)
    (h0 : (i 0).val = t.val * 2000 + (y 0).val) (h1 : (i 1).val = (y 1).val) :
    iblk m c 2 t y = V m c main_v11 i := by
  obtain ⟨-, -, -, -, e0, e1, -⟩ := idx_facts t
  unfold iblk
  rw [View.read_apply]
  show V m c main_v11 _ = V m c main_v11 i
  refine congrArg (V m c main_v11) (funext fun a => Fin.ext ?_)
  match a with
  | ⟨0, _⟩ => show win0_2.index t (0 : Fin 2) * 2000 + 1 * (y 0).val = (i 0).val; rw [e0, h0]; omega
  | ⟨1, _⟩ => show win0_2.index t (1 : Fin 2) * 131 + 1 * (y 1).val = (i 1).val; rw [e1, h1]; omega

/-- The first weight block is the whole 64 x 256 matrix at every tile. -/
theorem blk3_read (c : Dev nD) (t : Fin cfg0.N) (y : S64x256.Idx) (i : S64x256.Idx)
    (h0 : (i 0).val = (y 0).val) (h1 : (i 1).val = (y 1).val) :
    iblk m c 3 t y = V m c main_v13 i := by
  obtain ⟨-, -, -, -, -, -, e0, e1, -⟩ := idx_facts t
  unfold iblk
  rw [View.read_apply]
  show V m c main_v13 _ = V m c main_v13 i
  refine congrArg (V m c main_v13) (funext fun a => Fin.ext ?_)
  match a with
  | ⟨0, _⟩ => show win0_3.index t (0 : Fin 2) * 64 + 1 * (y 0).val = (i 0).val; rw [e0, h0]; omega
  | ⟨1, _⟩ => show win0_3.index t (1 : Fin 2) * 256 + 1 * (y 1).val = (i 1).val; rw [e1, h1]; omega

/-- The second weight block is the whole 131 x 256 matrix at every tile. -/
theorem blk4_read (c : Dev nD) (t : Fin cfg0.N) (y : S131x256.Idx) (i : S131x256.Idx)
    (h0 : (i 0).val = (y 0).val) (h1 : (i 1).val = (y 1).val) :
    iblk m c 4 t y = V m c main_v15 i := by
  obtain ⟨-, -, -, -, -, -, -, -, e0, e1, -⟩ := idx_facts t
  unfold iblk
  rw [View.read_apply]
  show V m c main_v15 _ = V m c main_v15 i
  refine congrArg (V m c main_v15) (funext fun a => Fin.ext ?_)
  match a with
  | ⟨0, _⟩ => show win0_4.index t (0 : Fin 2) * 131 + 1 * (y 0).val = (i 0).val; rw [e0, h0]; omega
  | ⟨1, _⟩ => show win0_4.index t (1 : Fin 2) * 256 + 1 * (y 1).val = (i 1).val; rw [e1, h1]; omega

/-- The aggregation weight block is the whole 131 x 256 matrix at every tile. -/
theorem blk5_read (c : Dev nD) (t : Fin cfg0.N) (y : S131x256.Idx) (i : S131x256.Idx)
    (h0 : (i 0).val = (y 0).val) (h1 : (i 1).val = (y 1).val) :
    iblk m c 5 t y = V m c main_v16 i := by
  obtain ⟨-, -, -, -, -, -, -, -, -, -, e0, e1, -⟩ := idx_facts t
  unfold iblk
  rw [View.read_apply]
  show V m c main_v16 _ = V m c main_v16 i
  refine congrArg (V m c main_v16) (funext fun a => Fin.ext ?_)
  match a with
  | ⟨0, _⟩ => show win0_5.index t (0 : Fin 2) * 131 + 1 * (y 0).val = (i 0).val; rw [e0, h0]; omega
  | ⟨1, _⟩ => show win0_5.index t (1 : Fin 2) * 256 + 1 * (y 1).val = (i 1).val; rw [e1, h1]; omega

/-- The first bias block is the whole bias row at every tile. -/
theorem blk6_read (c : Dev nD) (t : Fin cfg0.N) (y : S1x256.Idx) (i : S1x256.Idx)
    (h0 : (i 0).val = (y 0).val) (h1 : (i 1).val = (y 1).val) :
    iblk m c 6 t y = V m c main_v17 i := by
  obtain ⟨-, -, -, -, -, -, -, -, -, -, -, -, e0, e1, -⟩ := idx_facts t
  unfold iblk
  rw [View.read_apply]
  show V m c main_v17 _ = V m c main_v17 i
  refine congrArg (V m c main_v17) (funext fun a => Fin.ext ?_)
  match a with
  | ⟨0, _⟩ => show win0_6.index t (0 : Fin 2) * 1 + 1 * (y 0).val = (i 0).val; rw [e0, h0]; omega
  | ⟨1, _⟩ => show win0_6.index t (1 : Fin 2) * 256 + 1 * (y 1).val = (i 1).val; rw [e1, h1]; omega

/-- The second bias block is the whole bias row at every tile. -/
theorem blk7_read (c : Dev nD) (t : Fin cfg0.N) (y : S1x256.Idx) (i : S1x256.Idx)
    (h0 : (i 0).val = (y 0).val) (h1 : (i 1).val = (y 1).val) :
    iblk m c 7 t y = V m c main_v18 i := by
  obtain ⟨-, -, -, -, -, -, -, -, -, -, -, -, -, -, e0, e1, -⟩ := idx_facts t
  unfold iblk
  rw [View.read_apply]
  show V m c main_v18 _ = V m c main_v18 i
  refine congrArg (V m c main_v18) (funext fun a => Fin.ext ?_)
  match a with
  | ⟨0, _⟩ => show win0_7.index t (0 : Fin 2) * 1 + 1 * (y 0).val = (i 0).val; rw [e0, h0]; omega
  | ⟨1, _⟩ => show win0_7.index t (1 : Fin 2) * 256 + 1 * (y 1).val = (i 1).val; rw [e1, h1]; omega

end Cert.MeshKernel

end
-- ==== Proof.KernelArrays.lean ====
/-
  From the tiles to the arrays: what the two result arrays hold after the region has run.

  At tile t the body writes rows 2000 t .. 2000 t + 1999 of each result. Element (r, o) of a result is therefore the
  body's store at row r mod 2000 of tile r / 2000, and that store reads exactly row r of the row-tiled arrays: each
  result array is ONE function of the arrays the region finds (`firstOf`, `secondOf`), and since the 100 tiles cover all
  200000 rows the arrays hold those functions everywhere.
-/
import proofs.«406984_j80985903334295_3_alg».proof.Proof.KernelTiles

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.MeshKernel

open Cert.KernelIdeal Cert.KernelIdeal.Gen Cert.KernelIdeal.Value

variable (m : (ℓ : Loc nD τ sig) → Buf (Elt Ideal) ℓ) (ρ : Dev nD → PrngReg)

/-! ## The two results as functions of the arrays the region finds -/

/-- The first result over the region's arrays: a0 the spatial array, a1 the structural array, w1 and w2 the two
    weight blocks as the region finds them (input feature by output channel), b1 the bias row. -/
def firstOf (a0 : Vec Ideal S200000x64 .f32) (a1 : Vec Ideal S200000x131 .f32) (w1 : Vec Ideal S64x256 .f32)
    (w2 : Vec Ideal S131x256 .f32) (b1 : Vec Ideal S1x256 .f32) : Vec Ideal S200000x256 .f32 :=
  fun i => (∑ k : Fin 64, a0 (ix2 (i 0) k) * w1 (ix2 k (i 1)) + ∑ k : Fin 131, a1 (ix2 (i 0) k) * w2 (ix2 k (i 1)))
    + b1 (ix2 (0 : Fin 1) (i 1))

/-- The second result over the region's arrays: a1 the structural array, s the neighbour-sum array, wa the weight
    block, b2 the bias row. -/
def secondOf (a1 s : Vec Ideal S200000x131 .f32) (wa : Vec Ideal S131x256 .f32) (b2 : Vec Ideal S1x256 .f32) :
    Vec Ideal S200000x256 .f32 :=
  fun i => ∑ k : Fin 131, ((a1 (ix2 (i 0) k) + s (ix2 (i 0) k)) * Ideal.ofBits .f32 0x3E800000#32) * wa (ix2 k (i 1))
    + b2 (ix2 (0 : Fin 1) (i 1))

/-- What tile t writes back to the first result is tile t of `firstOf`. -/
theorem flushed8_eq (c : Dev nD) (t : Fin cfg0.N) :
    (dats m 0 c).flushed 8 t = ((cfg0.win 8).blk t).view.read (Elt Ideal)
      (firstOf (V m c main_arg0) (V m c main_arg1) (V m c main_v13) (V m c main_v15) (V m c main_v17)) := by
  obtain ⟨-, -, -, -, -, -, -, -, -, -, -, -, -, -, -, -, e0, e1, -⟩ := idx_facts t
  rw [Value.flushed8]
  unfold out0_8
  rw [View.canon_unit_zero hz]
  simp only [View.ld_unit_zero (S := S2000x64) hz, View.ld_unit_zero (S := S2000x131) hz,
    View.ld_unit_zero (S := S64x256) hz, View.ld_unit_zero (S := S131x256) hz, View.ld_unit_zero (S := S1x256) hz]
  funext j
  have hr : ((((cfg0.win 8).blk t).view.emb j) 0).val = t.val * 2000 + (j 0).val := by
    show win0_8.index t (0 : Fin 2) * 2000 + 1 * (j 0).val = _
    rw [e0]; omega
  have hq : ((((cfg0.win 8).blk t).view.emb j) 1).val = (j 1).val := by
    show win0_8.index t (1 : Fin 2) * 256 + 1 * (j 1).val = _
    rw [e1]; omega
  show k0_pay1 (F := Ideal) (iblk m c 0 t) (iblk m c 1 t) (iblk m c 3 t) (iblk m c 4 t) (iblk m c 6 t) j
    = firstOf (V m c main_arg0) (V m c main_arg1) (V m c main_v13) (V m c main_v15) (V m c main_v17)
        (((cfg0.win 8).blk t).view.emb j)
  refine (pay1_at (iblk m c 0 t) (iblk m c 1 t) (iblk m c 3 t) (iblk m c 4 t) (iblk m c 6 t) j).trans ?_
  unfold firstOf
  refine congrArg₂ (· + ·) (congrArg₂ (· + ·) (Finset.sum_congr rfl fun k _ => ?_) (Finset.sum_congr rfl fun k _ => ?_)) ?_
  · rw [blk0_read m c t (ix2 (j 0) k) (ix2 ((((cfg0.win 8).blk t).view.emb j) 0) k) hr rfl,
      blk3_read m c t (ix2 k (j 1)) (ix2 k ((((cfg0.win 8).blk t).view.emb j) 1)) rfl hq]
  · rw [blk1_read m c t (ix2 (j 0) k) (ix2 ((((cfg0.win 8).blk t).view.emb j) 0) k) hr rfl,
      blk4_read m c t (ix2 k (j 1)) (ix2 k ((((cfg0.win 8).blk t).view.emb j) 1)) rfl hq]
  · rw [blk6_read m c t (ix2 (0 : Fin 1) (j 1)) (ix2 (0 : Fin 1) ((((cfg0.win 8).blk t).view.emb j) 1)) rfl hq]

/-- What tile t writes back to the second result is tile t of `secondOf`. -/
theorem flushed9_eq (c : Dev nD) (t : Fin cfg0.N) :
    (dats m 0 c).flushed 9 t = ((cfg0.win 9).blk t).view.read (Elt Ideal)
      (secondOf (V m c main_arg1) (V m c main_v11) (V m c main_v16) (V m c main_v18)) := by
  obtain ⟨-, -, -, -, -, -, -, -, -, -, -, -, -, -, -, -, -, -, e0, e1⟩ := idx_facts t
  rw [Value.flushed9]
  unfold out0_9
  rw [View.canon_unit_zero hz]
  simp only [View.ld_unit_zero (S := S2000x131) hz, View.ld_unit_zero (S := S131x256) hz, View.ld_unit_zero (S := S1x256) hz]
  funext j
  have hr : ((((cfg0.win 9).blk t).view.emb j) 0).val = t.val * 2000 + (j 0).val := by
    show win0_9.index t (0 : Fin 2) * 2000 + 1 * (j 0).val = _
    rw [e0]; omega
  have hq : ((((cfg0.win 9).blk t).view.emb j) 1).val = (j 1).val := by
    show win0_9.index t (1 : Fin 2) * 256 + 1 * (j 1).val = _
    rw [e1]; omega
  show k0_pay2 (F := Ideal) (iblk m c 1 t) (iblk m c 2 t) (iblk m c 5 t) (iblk m c 7 t) j
    = secondOf (V m c main_arg1) (V m c main_v11) (V m c main_v16) (V m c main_v18) (((cfg0.win 9).blk t).view.emb j)
  refine (pay2_at (iblk m c 1 t) (iblk m c 2 t) (iblk m c 5 t) (iblk m c 7 t) j).trans ?_
  unfold secondOf
  refine congrArg₂ (· + ·) (Finset.sum_congr rfl fun k _ => ?_) ?_
  · rw [blk1_read m c t (ix2 (j 0) k) (ix2 ((((cfg0.win 9).blk t).view.emb j) 0) k) hr rfl,
      blk2_read m c t (ix2 (j 0) k) (ix2 ((((cfg0.win 9).blk t).view.emb j) 0) k) hr rfl,
      blk5_read m c t (ix2 k (j 1)) (ix2 k ((((cfg0.win 9).blk t).view.emb j) 1)) rfl hq]
  · rw [blk7_read m c t (ix2 (0 : Fin 1) (j 1)) (ix2 (0 : Fin 1) ((((cfg0.win 9).blk t).view.emb j) 1)) rfl hq]

/-! ## The tiles cover the arrays -/

/-- Row r of the first result lies in tile r / 2000. -/
theorem cover8 (i : S200000x256.Idx) :
    ∃ t : Fin cfg0.N, (cfg0.win 8).flush t = true ∧ i ∈ ((cfg0.win 8).blk t).view.set := by
  have hi0 : (i 0).val < 200000 := (i 0).isLt
  have hi1 : (i 1).val < 256 := (i 1).isLt
  obtain ⟨t, ht⟩ : ∃ t : Fin cfg0.N, t.val = (i 0).val / 2000 :=
    ⟨⟨(i 0).val / 2000, Nat.lt_of_lt_of_eq (by omega) N_0.symm⟩, rfl⟩
  obtain ⟨-, -, -, -, -, -, -, -, -, -, -, -, -, -, -, -, e0, e1, -⟩ := idx_facts t
  refine ⟨t, flush0_8 t, ?_⟩
  show i ∈ ((View.whole main_v19_0).slice (win0_8.rect t)).set
  rw [View.set_slice_whole, Rect.mem_set_unit]
  intro a
  match a with
  | ⟨0, _⟩ =>
    show win0_8.index t (0 : Fin 2) * 2000 ≤ (i 0).val ∧ (i 0).val < win0_8.index t (0 : Fin 2) * 2000 + 2000
    rw [e0, ht]; omega
  | ⟨1, _⟩ =>
    show win0_8.index t (1 : Fin 2) * 256 ≤ (i 1).val ∧ (i 1).val < win0_8.index t (1 : Fin 2) * 256 + 256
    rw [e1]; omega

/-- Row r of the second result lies in tile r / 2000. -/
theorem cover9 (i : S200000x256.Idx) :
    ∃ t : Fin cfg0.N, (cfg0.win 9).flush t = true ∧ i ∈ ((cfg0.win 9).blk t).view.set := by
  have hi0 : (i 0).val < 200000 := (i 0).isLt
  have hi1 : (i 1).val < 256 := (i 1).isLt
  obtain ⟨t, ht⟩ : ∃ t : Fin cfg0.N, t.val = (i 0).val / 2000 :=
    ⟨⟨(i 0).val / 2000, Nat.lt_of_lt_of_eq (by omega) N_0.symm⟩, rfl⟩
  obtain ⟨-, -, -, -, -, -, -, -, -, -, -, -, -, -, -, -, -, -, e0, e1⟩ := idx_facts t
  refine ⟨t, flush0_9 t, ?_⟩
  show i ∈ ((View.whole main_v19_1).slice (win0_9.rect t)).set
  rw [View.set_slice_whole, Rect.mem_set_unit]
  intro a
  match a with
  | ⟨0, _⟩ =>
    show win0_9.index t (0 : Fin 2) * 2000 ≤ (i 0).val ∧ (i 0).val < win0_9.index t (0 : Fin 2) * 2000 + 2000
    rw [e0, ht]; omega
  | ⟨1, _⟩ =>
    show win0_9.index t (1 : Fin 2) * 256 ≤ (i 1).val ∧ (i 1).val < win0_9.index t (1 : Fin 2) * 256 + 256
    rw [e1]; omega

/-! ## The result arrays after the run -/

/-- The first result array ends holding `firstOf` of the arrays the region found. -/
theorem final8 (c : Dev nD) : (dats m 0 c).arrAt 8 cfg0.N
    = firstOf (V m c main_arg0) (V m c main_arg1) (V m c main_v13) (V m c main_v15) (V m c main_v17) :=
  (dats m 0 c).arrAt_eq_of_cover 8 _ (fun t _ => flushed8_eq m c t) cover8

/-- The second result array ends holding `secondOf` of the arrays the region found. -/
theorem final9 (c : Dev nD) : (dats m 0 c).arrAt 9 cfg0.N
    = secondOf (V m c main_arg1) (V m c main_v11) (V m c main_v16) (V m c main_v18) :=
  (dats m 0 c).arrAt_eq_of_cover 9 _ (fun t _ => flushed9_eq m c t) cover9

end Cert.MeshKernel

end
-- ==== Proof.HostWeights.lean ====
/-
  The arrays the region finds, from the program's arguments: the weights and the biases.

  Before the region the program cuts Wc into its first 64 and its last 131 columns and transposes each cut, transposes
  Wa, and lays each bias vector out as a row. Read at an element:
    first weight block  [k, o] = Wc[o, k]          (k < 64)
    second weight block [k, o] = Wc[o, 64 + k]     (k < 131)
    aggregation block   [k, o] = Wa[o, k]          (k < 131)
    bias rows           [0, o] = bc[o], ba[o].
-/
import proofs.«406984_j80985903334295_3_alg».proof.Proof.Gen.KernelIdeal.Frame
import Idealize.ShloMosaic.Lib.StableHlo.Run
import Idealize.ShloMosaic.Lib.ValueIdx
import Idealize.ShloMosaic.Lib.ValueLayout

noncomputable section

open Idealize.ShloMosaic Idealize.ShloMosaic.TcCoe Idealize.SL.Sem Idealize.ShloMosaic.ValueIdx Idealize.ShloMosaic.StableHlo

namespace Cert.MeshKernel

open Cert.KernelIdeal Cert.KernelIdeal.Gen

variable (m : (ℓ : Loc nD τ sig) → Buf (Elt Ideal) ℓ)

set_option maxHeartbeats 4000000 in
/-- The first weight block the region finds: Wc's first 64 columns, transposed. -/
theorem v13_eq (c : Dev nD) :
    (V m c main_v13 : S64x256.Idx → EReal)
      = transpose S64x256 [1, 0] (extractStridedSlice S256x64 ![0, 0] (m ((c : Thread nD τ).loc main_arg3)) slices_S256x195_S256x64_0_0) transposes_S256x64_S64x256_1_0 := by
  show StableHlo.after (List.flatten [hostOps0, hostOps0_1, hostOps0_2, hostOps0_3, hostOps0_4, hostOps0_5, hostOps0_6, hostOps0_7, hostOps0_8]) (fun b => m (c, b)) (Proc.devRef .tc main_v13) = _
  simp only [hostOps0, hostOps0_1, hostOps0_2, hostOps0_3, hostOps0_4, hostOps0_5, hostOps0_6, hostOps0_7, hostOps0_8,
    List.flatten_cons, List.flatten_nil, List.append_nil, List.cons_append, List.nil_append]
  after_results <;> rfl

set_option maxHeartbeats 4000000 in
/-- The second weight block the region finds: Wc's last 131 columns, transposed. -/
theorem v15_eq (c : Dev nD) :
    (V m c main_v15 : S131x256.Idx → EReal)
      = transpose S131x256 [1, 0] (extractStridedSlice S256x131 ![0, 64] (m ((c : Thread nD τ).loc main_arg3)) slices_S256x195_S256x131_0_64) transposes_S256x131_S131x256_1_0 := by
  show StableHlo.after (List.flatten [hostOps0, hostOps0_1, hostOps0_2, hostOps0_3, hostOps0_4, hostOps0_5, hostOps0_6, hostOps0_7, hostOps0_8]) (fun b => m (c, b)) (Proc.devRef .tc main_v15) = _
  simp only [hostOps0, hostOps0_1, hostOps0_2, hostOps0_3, hostOps0_4, hostOps0_5, hostOps0_6, hostOps0_7, hostOps0_8,
    List.flatten_cons, List.flatten_nil, List.append_nil, List.cons_append, List.nil_append]
  after_results <;> rfl

set_option maxHeartbeats 4000000 in
/-- The aggregation weight block the region finds: Wa transposed. -/
theorem v16_eq (c : Dev nD) :
    (V m c main_v16 : S131x256.Idx → EReal)
      = transpose S131x256 [1, 0] (m ((c : Thread nD τ).loc main_arg5)) transposes_S256x131_S131x256_1_0 := by
  show StableHlo.after (List.flatten [hostOps0, hostOps0_1, hostOps0_2, hostOps0_3, hostOps0_4, hostOps0_5, hostOps0_6, hostOps0_7, hostOps0_8]) (fun b => m (c, b)) (Proc.devRef .tc main_v16) = _
  simp only [hostOps0, hostOps0_1, hostOps0_2, hostOps0_3, hostOps0_4, hostOps0_5, hostOps0_6, hostOps0_7, hostOps0_8,
    List.flatten_cons, List.flatten_nil, List.append_nil, List.cons_append, List.nil_append]
  after_results <;> rfl

set_option maxHeartbeats 4000000 in
/-- The first bias row the region finds: bc laid out as a row. -/
theorem v17_eq (c : Dev nD) :
    (V m c main_v17 : S1x256.Idx → EReal)
      = shapeCast S1x256 (m ((c : Thread nD τ).loc main_arg4)) shapeCasts_S256_S1x256 := by
  show StableHlo.after (List.flatten [hostOps0, hostOps0_1, hostOps0_2, hostOps0_3, hostOps0_4, hostOps0_5, hostOps0_6, hostOps0_7, hostOps0_8]) (fun b => m (c, b)) (Proc.devRef .tc main_v17) = _
  simp only [hostOps0, hostOps0_1, hostOps0_2, hostOps0_3, hostOps0_4, hostOps0_5, hostOps0_6, hostOps0_7, hostOps0_8,
    List.flatten_cons, List.flatten_nil, List.append_nil, List.cons_append, List.nil_append]
  after_results <;> rfl

set_option maxHeartbeats 4000000 in
/-- The second bias row the region finds: ba laid out as a row. -/
theorem v18_eq (c : Dev nD) :
    (V m c main_v18 : S1x256.Idx → EReal)
      = shapeCast S1x256 (m ((c : Thread nD τ).loc main_arg6)) shapeCasts_S256_S1x256 := by
  show StableHlo.after (List.flatten [hostOps0, hostOps0_1, hostOps0_2, hostOps0_3, hostOps0_4, hostOps0_5, hostOps0_6, hostOps0_7, hostOps0_8]) (fun b => m (c, b)) (Proc.devRef .tc main_v18) = _
  simp only [hostOps0, hostOps0_1, hostOps0_2, hostOps0_3, hostOps0_4, hostOps0_5, hostOps0_6, hostOps0_7, hostOps0_8,
    List.flatten_cons, List.flatten_nil, List.append_nil, List.cons_append, List.nil_append]
  after_results <;> rfl

/-! ## Read at an element -/

/-- The first weight block at (k, o) is Wc at (o, k). -/
theorem v13_apply (c : Dev nD) (k : Fin 64) (o : Fin 256) :
    (V m c main_v13 : S64x256.Idx → EReal) (ix2 k o)
      = (m ((c : Thread nD τ).loc main_arg3) : S256x195.Idx → EReal) (ix2 o (⟨k.val, by omega⟩ : Fin 195)) := by
  rw [v13_eq, transpose_ix2_apply, slice2_axis1_apply 0 _ _ o k ⟨k.val, by omega⟩ (by simp)]

/-- The second weight block at (k, o) is Wc at (o, 64 + k). -/
theorem v15_apply (c : Dev nD) (k : Fin 131) (o : Fin 256) :
    (V m c main_v15 : S131x256.Idx → EReal) (ix2 k o)
      = (m ((c : Thread nD τ).loc main_arg3) : S256x195.Idx → EReal) (ix2 o (⟨64 + k.val, by omega⟩ : Fin 195)) := by
  rw [v15_eq, transpose_ix2_apply, slice2_axis1_apply 64 _ _ o k ⟨64 + k.val, by omega⟩ rfl]

/-- The aggregation weight block at (k, o) is Wa at (o, k). -/
theorem v16_apply (c : Dev nD) (k : Fin 131) (o : Fin 256) :
    (V m c main_v16 : S131x256.Idx → EReal) (ix2 k o)
      = (m ((c : Thread nD τ).loc main_arg5) : S256x131.Idx → EReal) (ix2 o k) := by
  rw [v16_eq, transpose_ix2_apply]

/-- The first bias row at (0, o) is bc at o. -/
theorem v17_apply (c : Dev nD) (o : Fin 256) :
    (V m c main_v17 : S1x256.Idx → EReal) (ix2 (0 : Fin 1) o)
      = (m ((c : Thread nD τ).loc main_arg4) : S256.Idx → EReal) (ix1 o) := by
  rw [v17_eq, shapeCast_a_1a_apply]

/-- The second bias row at (0, o) is ba at o. -/
theorem v18_apply (c : Dev nD) (o : Fin 256) :
    (V m c main_v18 : S1x256.Idx → EReal) (ix2 (0 : Fin 1) o)
      = (m ((c : Thread nD τ).loc main_arg6) : S256.Idx → EReal) (ix1 o) := by
  rw [v18_eq, shapeCast_a_1a_apply]

end Cert.MeshKernel

end
-- ==== Proof.LibHostIdx2.lean ====
import Idealize.ShloMosaic.PureOps
import Idealize.ShloMosaic.Lib.ValueIdx

/-!
# A row gather and a one-axis scatter, read at an index

Two host operations on tables of rows, each read at one index of its result.

* The ROW GATHER `y[r, :] = x[idx[r], :]` of an operand `x : [N, C]` at a column of start
  indices `idx : [R, 1]`: result element `(r, q)` is `x` at row `idx[r, 0]`, that word read as a
  signed integer and clamped into `[0, N − 1]`, and column `q`.
* The SCATTER `y = x.at[idx].set(u)` of updates `u : [R]` into an operand `x : [N]` at a column
  of indices `idx : [R, 1]`.  The operation is a left fold over the updates in order: update `r`
  replaces the element at position `idx[r, 0]` (read signed, not clamped; dropped when outside
  `[0, N)`).  The value left at a position is that of the LAST update that lands there.  When
  the indices are the words of an injective map `p` into `[0, N)`, exactly one update lands at
  `p r`, namely update `r`, so no later step of the fold touches that position again and the
  order in which the fold visits the updates does not matter: the result at `p r` is `u r`, and
  a position no `p r` equals keeps the operand's element.
-/

namespace Idealize.ShloMosaic.HostIdx2

open Idealize.ShloMosaic Idealize.ShloMosaic.ValueIdx

/-! ## Words of small numbers -/

/-- The word of a number below half the word range reads back, signed, as that number. -/
theorem toInt_ofNat_of_lt {w k : Nat} (hk : 2 * k < 2 ^ w) : (BitVec.ofNat w k).toInt = (k : Int) := by
  rw [BitVec.toInt_eq_toNat_cond, BitVec.toNat_ofNat]
  have h1 : k % 2 ^ w = k := Nat.mod_eq_of_lt (by omega)
  rw [h1, if_pos hk]

/-! ## The row gather -/

/-- THE ROW GATHER READ AT `(r, q)`: the operand at row `idx[r, 0]`, read signed and clamped into
    `[0, N − 1]`, and column `q`. -/
theorem gather_rows_apply {α : Type} {N R C w : Nat} (hN : 0 < N)
    (d : GatherDims ⟨2, ![N, C]⟩ ⟨2, ![R, 1]⟩ ⟨2, ![R, C]⟩)
    (hod : d.offsetDims = [1]) (hcd : d.collapsedSliceDims = [0]) (hob : d.operandBatchingDims = [])
    (hsb : d.startIndicesBatchingDims = []) (hsim : d.startIndexMap = [0]) (hiv : d.indexVectorDim = 1)
    (hss : d.sliceSizes = ![1, C])
    (x : (⟨2, ![N, C]⟩ : Shape).Idx → α) (idx : IVec ⟨2, ![R, 1]⟩ w) (r : Fin R) (q : Fin C) :
    Host.gather d x idx (ix2 r q)
      = x (ix2 ⟨min (idx (ix2 r (0 : Fin 1))).toInt.toNat (N - 1), by omega⟩ q) := by
  obtain ⟨od, cd, ob, sb, sim, iv, ss, wf⟩ := d
  dsimp only at hod hcd hob hsb hsim hiv hss
  subst hod hcd hob hsb hsim hiv hss
  unfold Host.gather
  congr 1
  funext a
  refine Fin.ext ?_
  match a with
  | ⟨0, _⟩ =>
    show GatherDims.start _ (ix2 r q) idx 0 + GatherDims.batchCoord _ (ix2 r q) 0
      + GatherDims.offCoord _ (ix2 r q) 0 = _
    rw [GatherDims.batchCoord_eq_zero _ _ _ List.not_mem_nil,
      GatherDims.offCoord_eq_zero _ _ _
        (fun h => ((GatherDims.mem_sKept _ _).mp h).1 (List.mem_singleton.mpr rfl))]
    simp only [Nat.add_zero]
    unfold GatherDims.start
    rw [dif_pos (List.mem_singleton.mpr rfl)]
    have hsi : GatherDims.siIdx (s := ⟨2, ![N, C]⟩) (si := ⟨2, ![R, 1]⟩) (t := ⟨2, ![R, C]⟩)
        ⟨[1], [0], [], [], [0], 1, ![1, C], wf⟩ (ix2 r q)
        ⟨List.idxOf (0 : Fin 2) [0], List.idxOf_lt_length_iff.2 (List.mem_singleton.mpr rfl)⟩
          = ix2 r (0 : Fin 1) := by
      funext b; refine Fin.ext ?_
      match b with
      | ⟨0, _⟩ => rfl
      | ⟨1, _⟩ => rfl
    rw [hsi]
    rfl
  | ⟨1, _⟩ =>
    show GatherDims.start _ (ix2 r q) idx 1 + GatherDims.batchCoord _ (ix2 r q) 1
      + GatherDims.offCoord _ (ix2 r q) 1 = _
    rw [GatherDims.batchCoord_eq_zero _ _ _ List.not_mem_nil]
    unfold GatherDims.start
    rw [dif_neg (show (1 : Fin 2) ∉ ([0] : List (Fin 2)) by decide)]
    simp only [Nat.add_zero, Nat.zero_add]
    unfold GatherDims.offCoord
    rw [dif_pos ((GatherDims.mem_sKept _ _).mpr ⟨show (1 : Fin 2) ∉ ([0] : List (Fin 2)) by decide, List.not_mem_nil⟩)]
    rfl

/-- The row gather at a start index that is the word of a row number `k < N`: row `k`. -/
theorem gather_rows_apply_of_eq {α : Type} {N R C w : Nat}
    (d : GatherDims ⟨2, ![N, C]⟩ ⟨2, ![R, 1]⟩ ⟨2, ![R, C]⟩)
    (hod : d.offsetDims = [1]) (hcd : d.collapsedSliceDims = [0]) (hob : d.operandBatchingDims = [])
    (hsb : d.startIndicesBatchingDims = []) (hsim : d.startIndexMap = [0]) (hiv : d.indexVectorDim = 1)
    (hss : d.sliceSizes = ![1, C]) (hNw : 2 * N ≤ 2 ^ w)
    (x : (⟨2, ![N, C]⟩ : Shape).Idx → α) (idx : IVec ⟨2, ![R, 1]⟩ w) (r : Fin R) (q : Fin C)
    (k : Nat) (hk : k < N) (hidx : idx (ix2 r (0 : Fin 1)) = BitVec.ofNat w k) :
    Host.gather d x idx (ix2 r q) = x (ix2 ⟨k, hk⟩ q) := by
  rw [gather_rows_apply (by omega) d hod hcd hob hsb hsim hiv hss]
  congr 2
  refine Fin.ext ?_
  show min (idx (ix2 r (0 : Fin 1))).toInt.toNat (N - 1) = k
  rw [hidx, toInt_ofNat_of_lt (by omega)]
  simp only [Int.toNat_natCast]
  omega

/-! ## The scatter -/

/-- A left fold of point writes: a position that holds `c`, and at which every writer in the list
    writes `c`, holds `c` after the fold. -/
theorem foldl_set_inv {ι κ α : Type} [DecidableEq κ] (g : ι → κ) (v : ι → α) (k : κ) (c : α) :
    ∀ (l : List ι) (r : κ → α), (∀ n ∈ l, g n = k → v n = c) → r k = c →
      (l.foldl (fun r n => fun i' => if i' = g n then v n else r i') r) k = c
  | [], _, _, h => h
  | a :: l, r, hl, h => by
    rw [List.foldl_cons]
    refine foldl_set_inv g v k c l _ (fun n hn => hl n (List.mem_cons_of_mem _ hn)) ?_
    show (if k = g a then v a else r k) = c
    by_cases hk : k = g a
    · rw [if_pos hk]; exact hl a List.mem_cons_self hk.symm
    · rw [if_neg hk]; exact h

/-- A left fold of point writes, read at the position of a writer `n₀` of the list, all of whose
    co-writers write the same value: that value. -/
theorem foldl_set_hit {ι κ α : Type} [DecidableEq κ] (g : ι → κ) (v : ι → α) (n₀ : ι) :
    ∀ (l : List ι) (r : κ → α), n₀ ∈ l → (∀ n ∈ l, g n = g n₀ → v n = v n₀) →
      (l.foldl (fun r n => fun i' => if i' = g n then v n else r i') r) (g n₀) = v n₀
  | [], _, hm, _ => nomatch hm
  | a :: l, r, hm, hl => by
    rw [List.foldl_cons]
    by_cases ha : g a = g n₀
    · refine foldl_set_inv g v (g n₀) (v n₀) l _ (fun n hn => hl n (List.mem_cons_of_mem _ hn)) ?_
      show (if g n₀ = g a then v a else r (g n₀)) = v n₀
      rw [if_pos ha.symm]; exact hl a List.mem_cons_self ha
    · have hm' : n₀ ∈ l := by
        rcases List.mem_cons.1 hm with h | h
        · exact absurd (by rw [h]) ha
        · exact h
      exact foldl_set_hit g v n₀ l _ hm' (fun n hn => hl n (List.mem_cons_of_mem _ hn))

/-- Where update `r` lands: position `p r`. -/
theorem resultIdx_eq {N R w : Nat}
    (d : ScatterDims ⟨1, ![N]⟩ ⟨2, ![R, 1]⟩ ⟨1, ![R]⟩)
    (huw : d.updateWindowDims = []) (hiw : d.insertedWindowDims = [0])
    (hsd : d.scatterDimsToOperandDims = [0]) (hiv : d.indexVectorDim = 1) (hNw : 2 * N ≤ 2 ^ w)
    (idx : IVec ⟨2, ![R, 1]⟩ w)
    (p : Fin R → Nat) (hp : ∀ r, p r < N) (hidx : ∀ r, idx (ix2 r (0 : Fin 1)) = BitVec.ofNat w (p r))
    (r : Fin R) :
    d.resultIdx? (ix1 r) idx = some (ix1 ⟨p r, hp r⟩) := by
  obtain ⟨uw, iw, sd, iv, wf⟩ := d
  dsimp only at huw hiw hsd hiv
  subst huw hiw hsd hiv
  have hst : ∀ a, ScatterDims.start (s := ⟨1, ![N]⟩) (si := ⟨2, ![R, 1]⟩) (u := ⟨1, ![R]⟩)
      ⟨[], [0], [0], 1, wf⟩ (ix1 r) idx a
      + (ScatterDims.window (s := ⟨1, ![N]⟩) (si := ⟨2, ![R, 1]⟩) (u := ⟨1, ![R]⟩)
          ⟨[], [0], [0], 1, wf⟩ (ix1 r) a : Nat) = (p r : Int) := by
    intro a
    obtain rfl : a = 0 := Subsingleton.elim _ _
    unfold ScatterDims.start ScatterDims.window
    have hnk : (0 : Fin 1) ∉ ScatterDims.sKept (s := ⟨1, ![N]⟩) (si := ⟨2, ![R, 1]⟩) (u := ⟨1, ![R]⟩)
        ⟨[], [0], [0], 1, wf⟩ := by
      simp [ScatterDims.sKept, Shape.kept]
    rw [dif_pos (List.mem_singleton.mpr rfl), dif_neg hnk]
    have hsi : ScatterDims.siIdx (s := ⟨1, ![N]⟩) (si := ⟨2, ![R, 1]⟩) (u := ⟨1, ![R]⟩)
        ⟨[], [0], [0], 1, wf⟩ (ix1 r)
        ⟨List.idxOf (0 : Fin 1) [0], List.idxOf_lt_length_iff.2 (List.mem_singleton.mpr rfl)⟩
          = ix2 r (0 : Fin 1) := by
      funext b; refine Fin.ext ?_
      match b with
      | ⟨0, _⟩ => rfl
      | ⟨1, _⟩ => rfl
    rw [hsi, hidx, toInt_ofNat_of_lt (by have := hp r; omega)]
    simp
  unfold ScatterDims.resultIdx?
  have hall : ∀ a, 0 ≤ ScatterDims.start (s := ⟨1, ![N]⟩) (si := ⟨2, ![R, 1]⟩) (u := ⟨1, ![R]⟩)
      ⟨[], [0], [0], 1, wf⟩ (ix1 r) idx a
      + (ScatterDims.window (s := ⟨1, ![N]⟩) (si := ⟨2, ![R, 1]⟩) (u := ⟨1, ![R]⟩)
          ⟨[], [0], [0], 1, wf⟩ (ix1 r) a : Nat) ∧
      ScatterDims.start (s := ⟨1, ![N]⟩) (si := ⟨2, ![R, 1]⟩) (u := ⟨1, ![R]⟩)
      ⟨[], [0], [0], 1, wf⟩ (ix1 r) idx a
      + (ScatterDims.window (s := ⟨1, ![N]⟩) (si := ⟨2, ![R, 1]⟩) (u := ⟨1, ![R]⟩)
          ⟨[], [0], [0], 1, wf⟩ (ix1 r) a : Nat) < ((⟨1, ![N]⟩ : Shape).size a : Int) := by
    intro a
    rw [hst a]
    obtain rfl : a = 0 := Subsingleton.elim _ _
    have := hp r
    show (0 : Int) ≤ (p r : Int) ∧ (p r : Int) < ((N : Nat) : Int)
    omega
  rw [dif_pos hall]
  congr 1
  funext a
  refine Fin.ext ?_
  obtain rfl : a = 0 := Subsingleton.elim _ _
  show (ScatterDims.start _ (ix1 r) idx 0 + (ScatterDims.window _ (ix1 r) 0 : Nat)).toNat = p r
  rw [hst 0]
  simp

/-- THE SCATTER READ AT A HIT: when the indices are the words of an injective map `p` into
    `[0, N)`, position `p r` holds update `r`. -/
theorem scatter_set_apply_of_inj {α : Type} {N R w : Nat}
    (d : ScatterDims ⟨1, ![N]⟩ ⟨2, ![R, 1]⟩ ⟨1, ![R]⟩)
    (huw : d.updateWindowDims = []) (hiw : d.insertedWindowDims = [0])
    (hsd : d.scatterDimsToOperandDims = [0]) (hiv : d.indexVectorDim = 1) (hNw : 2 * N ≤ 2 ^ w)
    (x : (⟨1, ![N]⟩ : Shape).Idx → α) (idx : IVec ⟨2, ![R, 1]⟩ w) (u : (⟨1, ![R]⟩ : Shape).Idx → α)
    (p : Fin R → Nat) (hp : ∀ r, p r < N) (hidx : ∀ r, idx (ix2 r (0 : Fin 1)) = BitVec.ofNat w (p r))
    (hinj : Function.Injective p) (r : Fin R) :
    Host.scatter d (fun _ b => b) x idx u (ix1 ⟨p r, hp r⟩) = u (ix1 r) := by
  have hA : ∀ j : (⟨1, ![R]⟩ : Shape).Idx,
      d.resultIdx? j idx = some (ix1 ⟨p (j 0), hp (j 0)⟩) := by
    intro j
    have h := resultIdx_eq d huw hiw hsd hiv hNw idx p hp hidx (j 0)
    exact (congrArg (fun j' => d.resultIdx? j' idx) (eq_ix1 j)).trans h
  have hco : ∀ n ∈ List.finRange (⟨1, ![R]⟩ : Shape).numel,
      (ix1 ⟨p (((⟨1, ![R]⟩ : Shape).rowMajor.symm n) 0), hp _⟩ : (⟨1, ![N]⟩ : Shape).Idx)
        = ix1 ⟨p (((⟨1, ![R]⟩ : Shape).rowMajor.symm ((⟨1, ![R]⟩ : Shape).rowMajor (ix1 r))) 0), hp _⟩ →
      u ((⟨1, ![R]⟩ : Shape).rowMajor.symm n)
        = u ((⟨1, ![R]⟩ : Shape).rowMajor.symm ((⟨1, ![R]⟩ : Shape).rowMajor (ix1 r))) := by
    intro n _ hn
    rw [Equiv.symm_apply_apply] at hn ⊢
    have h1 : p (((⟨1, ![R]⟩ : Shape).rowMajor.symm n) 0) = p r := congrArg Fin.val (congrFun hn 0)
    have h2 := hinj h1
    rw [eq_ix1 ((⟨1, ![R]⟩ : Shape).rowMajor.symm n), h2]
    rfl
  have key := foldl_set_hit
    (fun n => (ix1 ⟨p (((⟨1, ![R]⟩ : Shape).rowMajor.symm n) 0), hp _⟩ : (⟨1, ![N]⟩ : Shape).Idx))
    (fun n => u ((⟨1, ![R]⟩ : Shape).rowMajor.symm n))
    ((⟨1, ![R]⟩ : Shape).rowMajor (ix1 r)) (List.finRange _) x (List.mem_finRange _) hco
  simp only [Equiv.symm_apply_apply] at key
  unfold Host.scatter
  simp only [hA]
  exact key

/-- THE SCATTER READ AT A MISS: a position that is no `p r` keeps the operand's element. -/
theorem scatter_set_apply_of_miss {α : Type} {N R w : Nat}
    (d : ScatterDims ⟨1, ![N]⟩ ⟨2, ![R, 1]⟩ ⟨1, ![R]⟩)
    (huw : d.updateWindowDims = []) (hiw : d.insertedWindowDims = [0])
    (hsd : d.scatterDimsToOperandDims = [0]) (hiv : d.indexVectorDim = 1) (hNw : 2 * N ≤ 2 ^ w)
    (x : (⟨1, ![N]⟩ : Shape).Idx → α) (idx : IVec ⟨2, ![R, 1]⟩ w) (u : (⟨1, ![R]⟩ : Shape).Idx → α)
    (p : Fin R → Nat) (hp : ∀ r, p r < N) (hidx : ∀ r, idx (ix2 r (0 : Fin 1)) = BitVec.ofNat w (p r))
    (n : Fin N) (hn : ∀ r, p r ≠ n.val) :
    Host.scatter d (fun _ b => b) x idx u (ix1 n) = x (ix1 n) := by
  have hA : ∀ j : (⟨1, ![R]⟩ : Shape).Idx,
      d.resultIdx? j idx = some (ix1 ⟨p (j 0), hp (j 0)⟩) := by
    intro j
    have h := resultIdx_eq d huw hiw hsd hiv hNw idx p hp hidx (j 0)
    exact (congrArg (fun j' => d.resultIdx? j' idx) (eq_ix1 j)).trans h
  have key := foldl_set_inv
    (fun m => (ix1 ⟨p (((⟨1, ![R]⟩ : Shape).rowMajor.symm m) 0), hp _⟩ : (⟨1, ![N]⟩ : Shape).Idx))
    (fun m => u ((⟨1, ![R]⟩ : Shape).rowMajor.symm m)) (ix1 n) (x (ix1 n)) (List.finRange _) x
    (fun m _ hm => absurd (congrArg Fin.val (congrFun hm 0)) (hn _)) rfl
  unfold Host.scatter
  simp only [hA]
  exact key

end Idealize.ShloMosaic.HostIdx2
-- ==== Proof.NbrWords.lean ====
/-
  Neighbour words: what clipping, wrapping and the range test do to one 32-bit word, and an and-reduction of ones.

  A neighbour word w is first clipped into [0, 199999] (the larger of 0 and w, then the smaller of 199999 and that, both
  signed). Whatever w is, the clipped word reads, signed, in [0, 199999], and clamping its row number into the table
  gives the same row as clamping w's own: a negative w goes to row 0 either way, a w past the table to row 199999 either
  way. On a word that reads non-negative, the wrap "add 200000 if negative" does nothing; on one that reads in
  [0, 199999] the in-range test "non-negative and at most 199999" is 1. An and-reduction whose operand is 1 everywhere,
  started from 1, is 1.
-/
import Idealize.ShloMosaic.PureOps
import Idealize.ShloMosaic.PureOps.Reduce
import Idealize.ShloMosaic.Lib.Affine
import Idealize.ShloMosaic.Lib.ValueIdx

namespace Cert.NbrWords

open Idealize.ShloMosaic

theorem toInt_zero : (0#32 : BitVec 32).toInt = 0 := by decide
theorem toInt_last : (199999#32 : BitVec 32).toInt = 199999 := by decide

/-- The clipped word reads in [0, 199999], and names the same table row as the word itself. -/
theorem clip_bounds (w : BitVec 32) :
    0 ≤ (IntOp.minsi 199999#32 (IntOp.maxsi 0#32 w)).toInt
    ∧ (IntOp.minsi 199999#32 (IntOp.maxsi 0#32 w)).toInt ≤ 199999
    ∧ min (IntOp.minsi 199999#32 (IntOp.maxsi 0#32 w)).toInt.toNat 199999 = min w.toInt.toNat 199999 := by
  unfold IntOp.minsi IntOp.maxsi
  by_cases h1 : w.slt 0#32 = true
  · rw [if_pos h1]
    have h2 : ¬ ((199999#32 : BitVec 32).slt 0#32 = true) := by decide
    rw [if_neg h2]
    have h3 := BitVec.slt_iff_toInt_lt.mp h1
    rw [toInt_zero] at h3
    rw [toInt_zero]
    omega
  · rw [if_neg h1]
    have hw : 0 ≤ w.toInt := by
      have h3 := mt BitVec.slt_iff_toInt_lt.mpr h1
      rw [toInt_zero] at h3
      omega
    by_cases h2 : (199999#32 : BitVec 32).slt w = true
    · rw [if_pos h2]
      have h3 := BitVec.slt_iff_toInt_lt.mp h2
      rw [toInt_last] at h3
      rw [toInt_last]
      omega
    · rw [if_neg h2]
      have h3 := mt BitVec.slt_iff_toInt_lt.mpr h2
      rw [toInt_last] at h3
      omega

/-- On a word that reads non-negative the wrap of negative indices does nothing. -/
theorem wrap_of_nonneg (w : BitVec 32) (h : 0 ≤ w.toInt) :
    Scalar.select (IntOp.cmpi .slt w 0#32) (IntOp.addi w 200000#32) w = w := by
  have hc : ¬ IntOp.cmpi .slt w 0#32 = 1#1 := fun e => by
    have h3 := IntOp.cmpi_slt.1 e
    rw [toInt_zero] at h3
    omega
  rw [ValueIdx.eq_zero_of_ne_one hc, ValueIdx.select_zero]

/-- On a word that reads in [0, 199999] the in-range test is 1. -/
theorem mask_of_range (w : BitVec 32) (h0 : 0 ≤ w.toInt) (h1 : w.toInt ≤ 199999) :
    IntOp.andi (IntOp.cmpi .sge w 0#32) (IntOp.cmpi .sle w 199999#32) = 1#1 :=
  IntOp.andi_eq_one.2 ⟨IntOp.cmpi_sge.2 (by rw [toInt_zero]; exact h0), IntOp.cmpi_sle.2 (by rw [toInt_last]; exact h1)⟩

/-- A left fold by `and` from 1 over ones is 1. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 by decide]
    exact foldl_andi_one f hf l

/-- An and-reduction started from 1 whose operand is 1 everywhere is 1 at every result index. -/
theorem reduce_andi_one {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, x i = 1#1) : Host.reduce IntOp.andi x init h hu j = 1#1 := by
  rw [Host.reduce_eq_foldl, hinit]
  exact foldl_andi_one x hx _

end Cert.NbrWords
-- ==== Proof.NbrTaken.lean ====
/-
  One neighbour's feature rows, gathered.

  The program clips the neighbour table into [0, 199999], cuts out one of its three columns as a vector R of 200000
  words, and takes from the structural array the rows R names. The take wraps negative words (adds 200000), gathers the
  rows (each start word read signed and clamped into the table), tests every wrapped word for being in [0, 199999], and
  keeps the gathered row where the test holds, a not-a-number fill elsewhere.
  Because R comes out of the clip, every word of R already reads in [0, 199999]: the wrap changes nothing, the test
  holds on every row, and no fill is ever selected. So the take at (r, k) is the structural array at row R[r] (clamped,
  which changes nothing either) and column k.
-/
import proofs.«406984_j80985903334295_3_alg».proof.Proof.Gen.KernelIdeal
import proofs.«406984_j80985903334295_3_alg».proof.Proof.LibHostIdx2
import proofs.«406984_j80985903334295_3_alg».proof.Proof.NbrWords
import Idealize.ShloMosaic.Lib.Pipeline.Value
import Idealize.ShloMosaic.Lib.ValueIdx
import Idealize.ShloMosaic.Lib.ValueLayout

noncomputable section

namespace Cert.MeshKernel

open Cert.KernelIdeal Cert.KernelIdeal.Facts₀ Idealize.ShloMosaic Idealize.ShloMosaic.ValueIdx

variable {F : FTy → Type} [FloatOps F]

/-! ## The clipped table and its three columns -/

/-- The neighbour table clipped into [0, 199999], word by word. -/
def clipped (nb : IVec S200000x3 32) : IVec S200000x3 32 :=
  minsi (broadcastInDim S200000x3 ![] bcast_S_S200000x3 (constantI S_ 32 199999#32))
    (maxsi (broadcastInDim S200000x3 ![] bcast_S_S200000x3 (constantI S_ 32 0#32)) nb)

theorem clipped_apply (nb : IVec S200000x3 32) (i : S200000x3.Idx) :
    clipped nb i = IntOp.minsi 199999#32 (IntOp.maxsi 0#32 (nb i)) := rfl

/-- Column 0 of a table, as a vector. -/
def column0 (cl : IVec S200000x3 32) : IVec S200000 32 :=
  shapeCast S200000 (extractStridedSlice S200000x1 ![0, 0] cl slices_S200000x3_S200000x1_0_0) shapeCasts_S200000x1_S200000
/-- Column 1 of a table, as a vector. -/
def column1 (cl : IVec S200000x3 32) : IVec S200000 32 :=
  shapeCast S200000 (extractStridedSlice S200000x1 ![0, 1] cl slices_S200000x3_S200000x1_0_1) shapeCasts_S200000x1_S200000
/-- Column 2 of a table, as a vector. -/
def column2 (cl : IVec S200000x3 32) : IVec S200000 32 :=
  shapeCast S200000 (extractStridedSlice S200000x1 ![0, 2] cl slices_S200000x3_S200000x1_0_2) shapeCasts_S200000x1_S200000

/-- A one-column table read as a vector: entry r is the table's (r, 0). -/
theorem cast_col_apply {α : Type} (x : S200000x1.Idx → α) (r : Fin 200000) :
    shapeCast S200000 x shapeCasts_S200000x1_S200000 (ix1 r) = x (ix2 r (0 : Fin 1)) :=
  shapeCast_apply x _ (ix1 r) (ix2 r (0 : Fin 1)) (by
    rw [Shape.rowMajor_val_two, Shape.rowMajor_val_one]
    show r.val * 1 + 0 = r.val
    omega)

theorem column0_apply (cl : IVec S200000x3 32) (r : Fin 200000) : column0 cl (ix1 r) = cl (ix2 r (0 : Fin 3)) := by
  unfold column0
  rw [cast_col_apply, slice2_axis1_apply 0 cl _ r (0 : Fin 1) (0 : Fin 3) rfl]
theorem column1_apply (cl : IVec S200000x3 32) (r : Fin 200000) : column1 cl (ix1 r) = cl (ix2 r (1 : Fin 3)) := by
  unfold column1
  rw [cast_col_apply, slice2_axis1_apply 1 cl _ r (0 : Fin 1) (1 : Fin 3) rfl]
theorem column2_apply (cl : IVec S200000x3 32) (r : Fin 200000) : column2 cl (ix1 r) = cl (ix2 r (2 : Fin 3)) := by
  unfold column2
  rw [cast_col_apply, slice2_axis1_apply 2 cl _ r (0 : Fin 1) (2 : Fin 3) rfl]

/-! ## The take -/

/-- The start indices of the take: negative words wrapped by 200000, as a one-column table. -/
def wrapped (R : IVec S200000 32) : IVec S200000x1 32 :=
  broadcastInDim S200000x1 ![0] bcast_S200000_S200000x1_0
    (select (cmpi .slt R (broadcastInDim S200000 ![] bcast_S_S200000 (constantI S_ 32 0#32)))
      (addi R (broadcastInDim S200000 ![] bcast_S_S200000 (constantI S_ 32 200000#32))) R)

/-- The rows of `st` the words of `R` name, with the not-a-number fill where a wrapped word is out of range. -/
def taken (st : FVec F S200000x131 .f32) (R : IVec S200000 32) : FVec F S200000x131 .f32 :=
  select
    (broadcastInDim S200000x131 ![0] bcast_S200000_S200000x131_0
      (Host.reduce IntOp.andi
        (andi
          (cmpi .sge (wrapped R) (broadcastInDim S200000x1 ![] bcast_S_S200000x1 (constantI S_ 32 0#32)))
          (cmpi .sle (wrapped R) (broadcastInDim S200000x1 ![0, 1] bcast_S1x1_S200000x1_0_1
            (broadcastInDim S1x1 ![1] bcast_S1_S1x1_1 (constantI S1 32 199999#32)))))
        (constantI S_ 1 1#1) reducesTo_S200000x1_S200000_d1 h_S_))
    (Host.gather gather_S200000x131_S200000x1_S200000x131_1_0_n_n_0_1_1131 st (wrapped R))
    (broadcastInDim S200000x131 ![] bcast_S_S200000x131 (constant S_ .f32 0x7FC00000#32))

/-- On a vector of words that all read in [0, 199999], the take at (r, k) is `st` at the row word r names. -/
theorem taken_apply (st : FVec F S200000x131 .f32) (R : IVec S200000 32)
    (hR : ∀ r : Fin 200000, 0 ≤ (R (ix1 r)).toInt ∧ (R (ix1 r)).toInt ≤ 199999) (r : Fin 200000) (k : Fin 131) :
    taken st R (ix2 r k) = st (ix2 (⟨min (R (ix1 r)).toInt.toNat 199999, by omega⟩ : Fin 200000) k) := by
  have hwr : ∀ i : S200000x1.Idx, wrapped R i = R (ix1 (i 0)) := by
    intro i
    unfold wrapped
    rw [broadcastInDim_apply _ bcast_S200000_S200000x1_0 _ i (ix1 (i 0)) (fun a => match a with
      | ⟨0, _⟩ => by show (i 0).val = if (200000 : Nat) = 1 then 0 else (i 0).val; rw [if_neg (by decide)])]
    exact NbrWords.wrap_of_nonneg _ (hR (i 0)).1
  have hmask : ∀ i : S200000x1.Idx,
      (andi (cmpi .sge (wrapped R) (broadcastInDim S200000x1 ![] bcast_S_S200000x1 (constantI S_ 32 0#32)))
        (cmpi .sle (wrapped R) (broadcastInDim S200000x1 ![0, 1] bcast_S1x1_S200000x1_0_1
          (broadcastInDim S1x1 ![1] bcast_S1_S1x1_1 (constantI S1 32 199999#32))))) i = 1#1 := by
    intro i
    show IntOp.andi (IntOp.cmpi .sge (wrapped R i) 0#32) (IntOp.cmpi .sle (wrapped R i) 199999#32) = 1#1
    rw [hwr i]
    exact NbrWords.mask_of_range _ (hR (i 0)).1 (hR (i 0)).2
  unfold taken
  rw [select_apply, broadcastInDim_apply _ bcast_S200000_S200000x131_0 _ (ix2 r k) (ix1 r) (fun a => match a with
      | ⟨0, _⟩ => by show r.val = if (200000 : Nat) = 1 then 0 else r.val; rw [if_neg (by decide)]),
    NbrWords.reduce_andi_one _ _ _ _ _ rfl hmask, select_one]
  refine (HostIdx2.gather_rows_apply (by omega) gather_S200000x131_S200000x1_S200000x131_1_0_n_n_0_1_1131
    rfl rfl rfl rfl rfl rfl rfl st (wrapped R) r k).trans ?_
  refine congrArg st (funext fun a => Fin.ext ?_)
  match a with
  | ⟨0, _⟩ =>
    show min (wrapped R (ix2 r (0 : Fin 1))).toInt.toNat (200000 - 1) = min (R (ix1 r)).toInt.toNat 199999
    rw [hwr]
  | ⟨1, _⟩ => rfl

end Cert.MeshKernel

end
-- ==== Proof.HostStages.lean ====
/-
  The program's operations before the region, stretch by stretch.

  The 164 operations before the region come in nine stretches: two constants; the clip of the neighbour table; then,
  for each of the table's three columns, the cut of the column and the take of the rows it names, the three takes added
  as they come; last the weights and biases re-laid. The array contents after all of them are the contents after the
  last stretch of the contents after the stretch before, and so on down to the arguments (`V_stages`). What one stretch
  writes into its result is read off that stretch alone, over whatever contents it started from; every other array it
  leaves as it was.
-/
import proofs.«406984_j80985903334295_3_alg».proof.Proof.Gen.KernelIdeal.Frame
import proofs.«406984_j80985903334295_3_alg».proof.Proof.NbrTaken
import Idealize.ShloMosaic.Lib.StableHlo.Run
import Idealize.ShloMosaic.Lib.ValueIdx

noncomputable section

open Idealize.ShloMosaic Idealize.ShloMosaic.TcCoe Idealize.SL.Sem Idealize.ShloMosaic.ValueIdx Idealize.ShloMosaic.StableHlo

namespace Cert.MeshKernel

open Cert.KernelIdeal Cert.KernelIdeal.Gen Cert.KernelIdeal.Facts₀

/-- The contents after two lines run one after the other. -/
theorem after_append {Val : EltTy → Type} (l₁ l₂ : List (HloOp τ sig Val)) (F : Valuation τ sig Val) :
    after (l₁ ++ l₂) F = after l₂ (after l₁ F) := by
  induction l₁ generalizing F with
  | nil => rfl
  | cons a l ih => simp only [List.cons_append, after_cons, ih]

variable (m : (ℓ : Loc nD τ sig) → Buf (Elt Ideal) ℓ)

/-- The contents the region finds, as the nine stretches applied in order to the launch contents. -/
theorem V_stages (c : Dev nD) (b : Ref sig .tc) :
    V m c b = after hostOps0_8 (after hostOps0_7 (after hostOps0_6 (after hostOps0_5 (after hostOps0_4 (after hostOps0_3
      (after hostOps0_2 (after hostOps0_1 (after hostOps0 (fun b => m (c, b)))))))))) (Proc.devRef .tc b) := by
  show StableHlo.after (List.flatten [hostOps0, hostOps0_1, hostOps0_2, hostOps0_3, hostOps0_4, hostOps0_5, hostOps0_6, hostOps0_7, hostOps0_8]) (fun b => m (c, b)) (Proc.devRef .tc b) = _
  simp only [List.flatten_cons, List.flatten_nil, List.append_nil, after_append]

/-! ## What each stretch writes -/

/-- The two constants: the clip's lower and upper bound. -/
theorem const_lo (G : Valuation τ sig (Elt Ideal)) :
    (after (hostOps0 (F := Ideal)) G (Proc.devRef .tc main_c) : S_.Idx → BitVec 32) = constantI S_ 32 0#32 := by
  simp only [hostOps0]
  after_results <;> rfl
theorem const_hi (G : Valuation τ sig (Elt Ideal)) :
    (after (hostOps0 (F := Ideal)) G (Proc.devRef .tc main_c_0) : S_.Idx → BitVec 32) = constantI S_ 32 199999#32 := by
  simp only [hostOps0]
  after_results <;> rfl

/-- The clip: the table's words brought into the two bounds. -/
theorem clip_result (G : Valuation τ sig (Elt Ideal)) :
    (after (hostOps0_1 (F := Ideal)) G (Proc.devRef .tc main_v0) : S200000x3.Idx → BitVec 32)
      = minsi (broadcastInDim S200000x3 ![] Facts₀.bcast_S_S200000x3 (G (Proc.devRef .tc main_c_0)))
          (maxsi (broadcastInDim S200000x3 ![] Facts₀.bcast_S_S200000x3 (G (Proc.devRef .tc main_c))) (G (Proc.devRef .tc main_arg2))) := by
  simp only [hostOps0_1]
  after_results <;> rfl

/-- Stretch 2 cuts column 0 out of the clipped table. -/
theorem col2_result (G : Valuation τ sig (Elt Ideal)) :
    (after (hostOps0_2 (F := Ideal)) G (Proc.devRef .tc main_v2) : S200000.Idx → BitVec 32)
      = column0 (G (Proc.devRef .tc main_v0)) := by
  simp only [hostOps0_2]
  after_results <;> rfl

/-- Stretch 4 cuts column 1 out of the clipped table. -/
theorem col4_result (G : Valuation τ sig (Elt Ideal)) :
    (after (hostOps0_4 (F := Ideal)) G (Proc.devRef .tc main_v5) : S200000.Idx → BitVec 32)
      = column1 (G (Proc.devRef .tc main_v0)) := by
  simp only [hostOps0_4]
  after_results <;> rfl

/-- Stretch 6 adds the first two takes, -/
theorem sum6_result (G : Valuation τ sig (Elt Ideal)) :
    (after (hostOps0_6 (F := Ideal)) G (Proc.devRef .tc main_v7) : S200000x131.Idx → EReal)
      = addf (F := Ideal) (s := S200000x131) (φ := .f32) (G (Proc.devRef .tc main_v3)) (G (Proc.devRef .tc main_v6)) := by
  simp only [hostOps0_6]
  after_results <;> rfl
/-- and cuts column 2 out of the clipped table. -/
theorem col6_result (G : Valuation τ sig (Elt Ideal)) :
    (after (hostOps0_6 (F := Ideal)) G (Proc.devRef .tc main_v9) : S200000.Idx → BitVec 32)
      = column2 (G (Proc.devRef .tc main_v0)) := by
  simp only [hostOps0_6]
  after_results <;> rfl

/-- The last stretch adds the third take. -/
theorem sum8_result (G : Valuation τ sig (Elt Ideal)) :
    (after (hostOps0_8 (F := Ideal)) G (Proc.devRef .tc main_v11) : S200000x131.Idx → EReal)
      = addf (F := Ideal) (s := S200000x131) (φ := .f32) (G (Proc.devRef .tc main_v7)) (G (Proc.devRef .tc main_v10)) := by
  simp only [hostOps0_8]
  after_results <;> rfl

/-! ## What each stretch leaves as it was -/

theorem keep7_v7 (G : Valuation τ sig (Elt Ideal)) :
    after (hostOps0_7 (F := Ideal)) G (Proc.devRef .tc main_v7) = G (Proc.devRef .tc main_v7) := by
  simp only [hostOps0_7]
  after_results <;> rfl
theorem keep7_arg1 (G : Valuation τ sig (Elt Ideal)) :
    after (hostOps0_7 (F := Ideal)) G (Proc.devRef .tc main_arg1) = G (Proc.devRef .tc main_arg1) := by
  simp only [hostOps0_7]
  after_results <;> rfl
theorem keep6_arg1 (G : Valuation τ sig (Elt Ideal)) :
    after (hostOps0_6 (F := Ideal)) G (Proc.devRef .tc main_arg1) = G (Proc.devRef .tc main_arg1) := by
  simp only [hostOps0_6]
  after_results <;> rfl
theorem keep5_v3 (G : Valuation τ sig (Elt Ideal)) :
    after (hostOps0_5 (F := Ideal)) G (Proc.devRef .tc main_v3) = G (Proc.devRef .tc main_v3) := by
  simp only [hostOps0_5]
  after_results <;> rfl
theorem keep5_v0 (G : Valuation τ sig (Elt Ideal)) :
    after (hostOps0_5 (F := Ideal)) G (Proc.devRef .tc main_v0) = G (Proc.devRef .tc main_v0) := by
  simp only [hostOps0_5]
  after_results <;> rfl
theorem keep5_arg1 (G : Valuation τ sig (Elt Ideal)) :
    after (hostOps0_5 (F := Ideal)) G (Proc.devRef .tc main_arg1) = G (Proc.devRef .tc main_arg1) := by
  simp only [hostOps0_5]
  after_results <;> rfl
theorem keep4_v3 (G : Valuation τ sig (Elt Ideal)) :
    after (hostOps0_4 (F := Ideal)) G (Proc.devRef .tc main_v3) = G (Proc.devRef .tc main_v3) := by
  simp only [hostOps0_4]
  after_results <;> rfl
theorem keep4_v0 (G : Valuation τ sig (Elt Ideal)) :
    after (hostOps0_4 (F := Ideal)) G (Proc.devRef .tc main_v0) = G (Proc.devRef .tc main_v0) := by
  simp only [hostOps0_4]
  after_results <;> rfl
theorem keep4_arg1 (G : Valuation τ sig (Elt Ideal)) :
    after (hostOps0_4 (F := Ideal)) G (Proc.devRef .tc main_arg1) = G (Proc.devRef .tc main_arg1) := by
  simp only [hostOps0_4]
  after_results <;> rfl
theorem keep3_v0 (G : Valuation τ sig (Elt Ideal)) :
    after (hostOps0_3 (F := Ideal)) G (Proc.devRef .tc main_v0) = G (Proc.devRef .tc main_v0) := by
  simp only [hostOps0_3]
  after_results <;> rfl
theorem keep3_arg1 (G : Valuation τ sig (Elt Ideal)) :
    after (hostOps0_3 (F := Ideal)) G (Proc.devRef .tc main_arg1) = G (Proc.devRef .tc main_arg1) := by
  simp only [hostOps0_3]
  after_results <;> rfl
theorem keep2_v0 (G : Valuation τ sig (Elt Ideal)) :
    after (hostOps0_2 (F := Ideal)) G (Proc.devRef .tc main_v0) = G (Proc.devRef .tc main_v0) := by
  simp only [hostOps0_2]
  after_results <;> rfl
theorem keep2_arg1 (G : Valuation τ sig (Elt Ideal)) :
    after (hostOps0_2 (F := Ideal)) G (Proc.devRef .tc main_arg1) = G (Proc.devRef .tc main_arg1) := by
  simp only [hostOps0_2]
  after_results <;> rfl
theorem keep1_arg1 (G : Valuation τ sig (Elt Ideal)) :
    after (hostOps0_1 (F := Ideal)) G (Proc.devRef .tc main_arg1) = G (Proc.devRef .tc main_arg1) := by
  simp only [hostOps0_1]
  after_results <;> rfl
theorem keep0_arg1 (G : Valuation τ sig (Elt Ideal)) :
    after (hostOps0 (F := Ideal)) G (Proc.devRef .tc main_arg1) = G (Proc.devRef .tc main_arg1) := by
  simp only [hostOps0]
  after_results <;> rfl
theorem keep0_arg2 (G : Valuation τ sig (Elt Ideal)) :
    after (hostOps0 (F := Ideal)) G (Proc.devRef .tc main_arg2) = G (Proc.devRef .tc main_arg2) := by
  simp only [hostOps0]
  after_results <;> rfl

end Cert.MeshKernel

end
-- ==== Proof.HostTakes.lean ====
/-
  The three takes, stretch by stretch.

  Each of the three take stretches (the same 23 operations on its own buffers) wraps the words of the column it is given,
  gathers the rows they name from the structural array, tests the wrapped words for being in range and selects between
  the gathered rows and the fill: over whatever contents the stretch starts from, its result is `taken` of the
  structural array and the column.
-/
import proofs.«406984_j80985903334295_3_alg».proof.Proof.Gen.KernelIdeal.Frame
import proofs.«406984_j80985903334295_3_alg».proof.Proof.NbrTaken
import Idealize.ShloMosaic.Lib.StableHlo.Run
import Idealize.ShloMosaic.Lib.ValueIdx

noncomputable section

open Idealize.ShloMosaic Idealize.ShloMosaic.TcCoe Idealize.SL.Sem Idealize.ShloMosaic.ValueIdx Idealize.ShloMosaic.StableHlo

namespace Cert.MeshKernel

open Cert.KernelIdeal Cert.KernelIdeal.Gen

set_option maxHeartbeats 8000000 in
/-- The take of stretch 3: the rows of the structural array the words of the column name. -/
theorem take3_result (G : Valuation τ sig (Elt Ideal)) :
    (after (hostOps0_3 (F := Ideal)) G (Proc.devRef .tc main_v3) : S200000x131.Idx → EReal)
      = taken (F := Ideal) (G (Proc.devRef .tc main_arg1)) (G (Proc.devRef .tc main_v2)) := by
  simp only [hostOps0_3]
  after_results
  simp only [TRef.ofBuf, TRef.toBuf, TRef.of, cast_cast, cast_eq]
  rfl

set_option maxHeartbeats 8000000 in
/-- The take of stretch 5: the rows of the structural array the words of the column name. -/
theorem take5_result (G : Valuation τ sig (Elt Ideal)) :
    (after (hostOps0_5 (F := Ideal)) G (Proc.devRef .tc main_v6) : S200000x131.Idx → EReal)
      = taken (F := Ideal) (G (Proc.devRef .tc main_arg1)) (G (Proc.devRef .tc main_v5)) := by
  simp only [hostOps0_5]
  after_results
  simp only [TRef.ofBuf, TRef.toBuf, TRef.of, cast_cast, cast_eq]
  rfl

set_option maxHeartbeats 8000000 in
/-- The take of stretch 7: the rows of the structural array the words of the column name. -/
theorem take7_result (G : Valuation τ sig (Elt Ideal)) :
    (after (hostOps0_7 (F := Ideal)) G (Proc.devRef .tc main_v10) : S200000x131.Idx → EReal)
      = taken (F := Ideal) (G (Proc.devRef .tc main_arg1)) (G (Proc.devRef .tc main_v9)) := by
  simp only [hostOps0_7]
  after_results
  simp only [TRef.ofBuf, TRef.toBuf, TRef.of, cast_cast, cast_eq]
  rfl

end Cert.MeshKernel

end
-- ==== Proof.MeshSpec.lean ====
/-
  What the two programs compute, index by index, over the extended reals.

  A mesh of 200000 nodes. Node r carries 64 spatial and 131 structural features, and names three neighbour nodes by
  the words neighbour[r, 0 .. 2]. Two linear maps with 256 output channels:

    first  result (r, o) = ( sum_{k < 64} spatial[r, k] * Wc[o, k] + sum_{k < 131} structural[r, k] * Wc[o, 64 + k] ) + bc[o]
    second result (r, o) = sum_{k < 131} mix[r, k] * Wa[o, k] + ba[o],
      mix[r, k] = ( structural[r, k] + ((structural[n0, k] + structural[n1, k]) + structural[n2, k]) ) * (1/4),

  where n_j is the row neighbour[r, j] names: the word read signed and clamped into the table's rows.

  The first result is the product of the concatenated feature row [spatial[r, :], structural[r, :]] (195 entries) with
  row o of Wc: a sum over 195 positions is the sum over the first 64 plus the sum over the last 131 (`sum_split`), which
  only regroups an addition of extended reals and needs nothing to be finite.
-/
import Idealize.ShloMosaic.PureOps.Ideal
import Idealize.ShloMosaic.Lib.ValueIdx
import Mathlib.Algebra.BigOperators.Fin

noncomputable section

open scoped BigOperators

namespace Cert.MeshSpec

open Idealize.ShloMosaic Idealize.ShloMosaic.ValueIdx

/-- The row of the feature table a neighbour word names: the word read signed, clamped into [0, 199999]. -/
def rowOf (w : BitVec 32) : Fin 200000 := ⟨min w.toInt.toNat 199999, by omega⟩

/-- The first result at node r and channel o. -/
def convAt (sp : FVec Ideal ⟨2, ![200000, 64]⟩ .f32) (st : FVec Ideal ⟨2, ![200000, 131]⟩ .f32)
    (Wc : FVec Ideal ⟨2, ![256, 195]⟩ .f32) (bc : FVec Ideal ⟨1, ![256]⟩ .f32) (r : Fin 200000) (o : Fin 256) : EReal :=
  (∑ k : Fin 64, sp (ix2 r k) * Wc (ix2 o (⟨k.val, by omega⟩ : Fin 195))
    + ∑ k : Fin 131, st (ix2 r k) * Wc (ix2 o (⟨64 + k.val, by omega⟩ : Fin 195))) + bc (ix1 o)

/-- The first result, as an array. -/
def conv (sp : FVec Ideal ⟨2, ![200000, 64]⟩ .f32) (st : FVec Ideal ⟨2, ![200000, 131]⟩ .f32)
    (Wc : FVec Ideal ⟨2, ![256, 195]⟩ .f32) (bc : FVec Ideal ⟨1, ![256]⟩ .f32) : FVec Ideal ⟨2, ![200000, 256]⟩ .f32 :=
  fun i => convAt sp st Wc bc (i 0) (i 1)

/-- The mean of a node's structural feature k with its three neighbours' (a quarter of the four-term sum). -/
def mixAt (st : FVec Ideal ⟨2, ![200000, 131]⟩ .f32) (nb : IVec ⟨2, ![200000, 3]⟩ 32) (r : Fin 200000) (k : Fin 131) : EReal :=
  (st (ix2 r k) + ((st (ix2 (rowOf (nb (ix2 r (0 : Fin 3)))) k) + st (ix2 (rowOf (nb (ix2 r (1 : Fin 3)))) k))
    + st (ix2 (rowOf (nb (ix2 r (2 : Fin 3)))) k))) * Ideal.ofBits .f32 0x3E800000#32

/-- The second result at node r and channel o. -/
def aggAt (st : FVec Ideal ⟨2, ![200000, 131]⟩ .f32) (nb : IVec ⟨2, ![200000, 3]⟩ 32)
    (Wa : FVec Ideal ⟨2, ![256, 131]⟩ .f32) (ba : FVec Ideal ⟨1, ![256]⟩ .f32) (r : Fin 200000) (o : Fin 256) : EReal :=
  ∑ k : Fin 131, mixAt st nb r k * Wa (ix2 o k) + ba (ix1 o)

/-- The second result, as an array. -/
def agg (st : FVec Ideal ⟨2, ![200000, 131]⟩ .f32) (nb : IVec ⟨2, ![200000, 3]⟩ 32)
    (Wa : FVec Ideal ⟨2, ![256, 131]⟩ .f32) (ba : FVec Ideal ⟨1, ![256]⟩ .f32) : FVec Ideal ⟨2, ![200000, 256]⟩ .f32 :=
  fun i => aggAt st nb Wa ba (i 0) (i 1)

/-- A sum over the 195 positions of a concatenated row is the sum over its first 64 plus the sum over its last 131. -/
theorem sum_split (f : Fin 195 → EReal) :
    ∑ c : Fin 195, f c = ∑ k : Fin 64, f ⟨k.val, by omega⟩ + ∑ k : Fin 131, f ⟨64 + k.val, by omega⟩ := by
  have h : (64 : Nat) + 131 = 195 := by norm_num
  calc ∑ c : Fin 195, f c = ∑ c : Fin (64 + 131), f (finCongr h c) := (Equiv.sum_comp (finCongr h) f).symm
    _ = _ := by rw [Fin.sum_univ_add]; rfl

end Cert.MeshSpec

end
-- ==== Proof.HostNbr.lean ====
/-
  The array of neighbour sums the region finds.

  Before the region the program clips the neighbour table, and for each of its three columns takes the structural rows
  the column names; the three takes are added, first and second, then the third (the stretches of HostStages.lean,
  chained from the last one back to the arguments). Read at (r, k): the structural entry k
  of the three rows node r's neighbour words name (each read signed and clamped into the table), added in that order.
-/
import proofs.«406984_j80985903334295_3_alg».proof.Proof.Gen.KernelIdeal.Frame
import proofs.«406984_j80985903334295_3_alg».proof.Proof.NbrTaken
import proofs.«406984_j80985903334295_3_alg».proof.Proof.HostStages
import proofs.«406984_j80985903334295_3_alg».proof.Proof.HostTakes
import proofs.«406984_j80985903334295_3_alg».proof.Proof.MeshSpec
import Idealize.ShloMosaic.Lib.StableHlo.Run
import Idealize.ShloMosaic.Lib.ValueIdx

noncomputable section

open Idealize.ShloMosaic Idealize.ShloMosaic.TcCoe Idealize.SL.Sem Idealize.ShloMosaic.ValueIdx Idealize.ShloMosaic.StableHlo

namespace Cert.MeshKernel

open Cert.KernelIdeal Cert.KernelIdeal.Gen Cert.MeshSpec

variable (m : (ℓ : Loc nD τ sig) → Buf (Elt Ideal) ℓ)

/-- The neighbour-sum array the region finds: the three takes, added. -/
theorem v11_eq (c : Dev nD) :
    (V m c main_v11 : S200000x131.Idx → EReal)
      = addf (addf
          (taken (F := Ideal) (m ((c : Thread nD τ).loc main_arg1)) (column0 (clipped (m ((c : Thread nD τ).loc main_arg2)))))
          (taken (F := Ideal) (m ((c : Thread nD τ).loc main_arg1)) (column1 (clipped (m ((c : Thread nD τ).loc main_arg2))))))
          (taken (F := Ideal) (m ((c : Thread nD τ).loc main_arg1)) (column2 (clipped (m ((c : Thread nD τ).loc main_arg2))))) := by
  rw [V_stages, sum8_result, keep7_v7, take7_result, sum6_result, keep6_arg1, col6_result, keep5_v3, take5_result,
    keep5_arg1, keep5_v0, keep4_v3, keep4_arg1, col4_result, keep4_v0, take3_result, keep3_arg1, keep3_v0, keep2_arg1,
    col2_result, keep2_v0, keep1_arg1, clip_result, keep0_arg1, const_hi, const_lo, keep0_arg2]
  rfl

/-- The structural array as launched. -/
abbrev stArr (c : Dev nD) : FVec Ideal S200000x131 .f32 := m ((c : Thread nD τ).loc main_arg1)
/-- The neighbour table as launched. -/
abbrev nbArr (c : Dev nD) : IVec S200000x3 32 := m ((c : Thread nD τ).loc main_arg2)

/-- The neighbour-sum array at (r, k): the structural entries k of the three rows node r's neighbour words name. -/
theorem nbrsum_apply (c : Dev nD) (r : Fin 200000) (k : Fin 131) :
    (V m c main_v11 : S200000x131.Idx → EReal) (ix2 r k)
      = (stArr m c (ix2 (rowOf (nbArr m c (ix2 r (0 : Fin 3)))) k) + stArr m c (ix2 (rowOf (nbArr m c (ix2 r (1 : Fin 3)))) k))
        + stArr m c (ix2 (rowOf (nbArr m c (ix2 r (2 : Fin 3)))) k) := by
  have hc : ∀ (col : IVec S200000x3 32 → IVec S200000 32) (j : Fin 3)
      (hcol : ∀ (cl : IVec S200000x3 32) (r' : Fin 200000), col cl (ix1 r') = cl (ix2 r' j)) (r' : Fin 200000),
      0 ≤ (col (clipped (nbArr m c)) (ix1 r')).toInt ∧ (col (clipped (nbArr m c)) (ix1 r')).toInt ≤ 199999 := by
    intro col j hcol r'
    rw [hcol, clipped_apply]
    exact ⟨(NbrWords.clip_bounds _).1, (NbrWords.clip_bounds _).2.1⟩
  rw [v11_eq, addf_apply, addf_apply, taken_apply _ _ (hc column0 0 column0_apply) r k,
    taken_apply _ _ (hc column1 1 column1_apply) r k, taken_apply _ _ (hc column2 2 column2_apply) r k]
  refine congrArg₂ (· + ·) (congrArg₂ (· + ·) ?_ ?_) ?_
  · refine congrArg (fun a => stArr m c (ix2 a k)) (Fin.ext ?_)
    show min (column0 (clipped (nbArr m c)) (ix1 r)).toInt.toNat 199999 = min (nbArr m c (ix2 r (0 : Fin 3))).toInt.toNat 199999
    rw [column0_apply, clipped_apply]
    exact (NbrWords.clip_bounds _).2.2
  · refine congrArg (fun a => stArr m c (ix2 a k)) (Fin.ext ?_)
    show min (column1 (clipped (nbArr m c)) (ix1 r)).toInt.toNat 199999 = min (nbArr m c (ix2 r (1 : Fin 3))).toInt.toNat 199999
    rw [column1_apply, clipped_apply]
    exact (NbrWords.clip_bounds _).2.2
  · refine congrArg (fun a => stArr m c (ix2 a k)) (Fin.ext ?_)
    show min (column2 (clipped (nbArr m c)) (ix1 r)).toInt.toNat 199999 = min (nbArr m c (ix2 r (2 : Fin 3))).toInt.toNat 199999
    rw [column2_apply, clipped_apply]
    exact (NbrWords.clip_bounds _).2.2

end Cert.MeshKernel

end
-- ==== Proof.KernelValue.lean ====
/-
  The kernel's two results are the specification.

  The region leaves each result array at one function of the arrays it finds (the tiles' stores, tile by tile); those
  arrays are the program's arguments re-laid: the weights cut and transposed, the biases as rows, the neighbour sums
  gathered. Substituting each at an element turns the region's functions into the specification's: the first result's
  two products read Wc's first 64 and last 131 columns, the second result's product reads the quarter of the four-row
  sum against Wa.
-/
import proofs.«406984_j80985903334295_3_alg».proof.Proof.KernelArrays
import proofs.«406984_j80985903334295_3_alg».proof.Proof.HostWeights
import proofs.«406984_j80985903334295_3_alg».proof.Proof.HostNbr
import proofs.«406984_j80985903334295_3_alg».proof.Proof.MeshSpec

noncomputable section

open scoped BigOperators
open Idealize.ShloMosaic Idealize.ShloMosaic.TcCoe Idealize.SL.Sem Idealize.ShloMosaic.ValueIdx

namespace Cert.MeshKernel

open Cert.KernelIdeal Cert.KernelIdeal.Gen Cert.KernelIdeal.Value Cert.MeshSpec

variable (m : (ℓ : Loc nD τ sig) → Buf (Elt Ideal) ℓ) (ρ : Dev nD → PrngReg)

/-- The region's first result, over the arguments: the specification's first result. -/
theorem first_is_conv (c : Dev nD) :
    firstOf (V m c main_arg0) (V m c main_arg1) (V m c main_v13) (V m c main_v15) (V m c main_v17)
      = conv (m ((c : Thread nD τ).loc main_arg0)) (m ((c : Thread nD τ).loc main_arg1))
          (m ((c : Thread nD τ).loc main_arg3)) (m ((c : Thread nD τ).loc main_arg4)) := by
  funext i
  unfold firstOf conv convAt
  rw [V_main_arg0, V_main_arg1]
  refine congrArg₂ (· + ·) (congrArg₂ (· + ·) (Finset.sum_congr rfl fun k _ => ?_) (Finset.sum_congr rfl fun k _ => ?_)) ?_
  · exact congrArg₂ (· * ·) rfl (v13_apply m c k (i 1))
  · exact congrArg₂ (· * ·) rfl (v15_apply m c k (i 1))
  · exact v17_apply m c (i 1)

/-- The region's second result, over the arguments: the specification's second result. -/
theorem second_is_agg (c : Dev nD) :
    secondOf (V m c main_arg1) (V m c main_v11) (V m c main_v16) (V m c main_v18)
      = agg (m ((c : Thread nD τ).loc main_arg1)) (m ((c : Thread nD τ).loc main_arg2))
          (m ((c : Thread nD τ).loc main_arg5)) (m ((c : Thread nD τ).loc main_arg6)) := by
  funext i
  unfold secondOf agg aggAt mixAt
  rw [V_main_arg1]
  refine congrArg₂ (· + ·) (Finset.sum_congr rfl fun k _ => ?_) ?_
  · exact congrArg₂ (· * ·) (congrArg₂ (· * ·) (congrArg₂ (· + ·) rfl (nbrsum_apply m c (i 0) k)) rfl) (v16_apply m c k (i 1))
  · exact v18_apply m c (i 1)

/-- The kernel's run, read: the two result arrays at the specification, the arguments unchanged. -/
theorem run : θ_run defs (onTc (τ := τ) (main (F := Ideal))) ⟨m, fun _ => 0, ρ⟩ fun r => ∀ c : Dev nD,
      r.2.mem ((c : Thread nD τ).loc main_v19_0)
        = conv (m ((c : Thread nD τ).loc main_arg0)) (m ((c : Thread nD τ).loc main_arg1))
            (m ((c : Thread nD τ).loc main_arg3)) (m ((c : Thread nD τ).loc main_arg4))
      ∧ r.2.mem ((c : Thread nD τ).loc main_v19_1)
        = agg (m ((c : Thread nD τ).loc main_arg1)) (m ((c : Thread nD τ).loc main_arg2))
            (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨((h c).1.trans (final8 m c)).trans (first_is_conv m c),
      ((h c).2.1.trans (final9 m c)).trans (second_is_agg m c), (h c).2.2⟩)
    (Value.run_blocks m ρ)

end Cert.MeshKernel

end
-- ==== Proof.LibGatherRowsAt.lean ====
/-
  A gather of table rows at a matrix of row numbers, read at an index.

  The gather y[r, j, :] = x[idx[r, j], :] of an operand x : [N, C] at start indices idx : [R, J, 1] (the operand's first
  axis collapsed, its second kept whole as the result's last axis; the index vector on the start indices' last axis):
  result element (r, j, q) is x at row idx[r, j, 0], that word read as a signed integer and clamped into [0, N - 1], and
  column q. This is what `x[idx]` of a matrix x at an integer matrix idx lowers to.
-/
import Idealize.ShloMosaic.PureOps
import Idealize.ShloMosaic.Lib.ValueIdx

namespace Idealize.ShloMosaic.HostIdxRJ

open Idealize.ShloMosaic Idealize.ShloMosaic.ValueIdx

/-- THE ROW GATHER AT A MATRIX OF ROW NUMBERS, READ AT (r, j, q): the operand at row idx[r, j, 0], read signed and
    clamped into [0, N - 1], and column q. -/
theorem gather_rows_at_apply {α : Type} {N R J C w : Nat} (hN : 0 < N)
    (d : GatherDims ⟨2, ![N, C]⟩ ⟨3, ![R, J, 1]⟩ ⟨3, ![R, J, C]⟩)
    (hod : d.offsetDims = [2]) (hcd : d.collapsedSliceDims = [0]) (hob : d.operandBatchingDims = [])
    (hsb : d.startIndicesBatchingDims = []) (hsim : d.startIndexMap = [0]) (hiv : d.indexVectorDim = 2)
    (hss : d.sliceSizes = ![1, C])
    (x : (⟨2, ![N, C]⟩ : Shape).Idx → α) (idx : IVec ⟨3, ![R, J, 1]⟩ w) (r : Fin R) (j : Fin J) (q : Fin C) :
    Host.gather d x idx (ix3 r j q)
      = x (ix2 ⟨min (idx (ix3 r j (0 : Fin 1))).toInt.toNat (N - 1), by omega⟩ q) := by
  obtain ⟨od, cd, ob, sb, sim, iv, ss, wf⟩ := d
  dsimp only at hod hcd hob hsb hsim hiv hss
  subst hod hcd hob hsb hsim hiv hss
  unfold Host.gather
  congr 1
  funext a
  refine Fin.ext ?_
  match a with
  | ⟨0, _⟩ =>
    -- the collapsed axis: the clamped start index, no batching coordinate, no offset
    show GatherDims.start _ (ix3 r j q) idx 0 + GatherDims.batchCoord _ (ix3 r j q) 0
      + GatherDims.offCoord _ (ix3 r j q) 0 = _
    rw [GatherDims.batchCoord_eq_zero _ _ _ List.not_mem_nil,
      GatherDims.offCoord_eq_zero _ _ _
        (fun h => ((GatherDims.mem_sKept _ _).mp h).1 (List.mem_singleton.mpr rfl))]
    simp only [Nat.add_zero]
    unfold GatherDims.start
    rw [dif_pos (List.mem_singleton.mpr rfl)]
    have hsi : GatherDims.siIdx (s := ⟨2, ![N, C]⟩) (si := ⟨3, ![R, J, 1]⟩) (t := ⟨3, ![R, J, C]⟩)
        ⟨[2], [0], [], [], [0], 2, ![1, C], wf⟩ (ix3 r j q)
        ⟨List.idxOf (0 : Fin 2) [0], List.idxOf_lt_length_iff.2 (List.mem_singleton.mpr rfl)⟩
          = ix3 r j (0 : Fin 1) := by
      funext b; refine Fin.ext ?_
      match b with
      | ⟨0, _⟩ => rfl
      | ⟨1, _⟩ => rfl
      | ⟨2, _⟩ => rfl
    rw [hsi]
    rfl
  | ⟨1, _⟩ =>
    -- the kept axis: start 0, no batching coordinate, the offset is the result's last coordinate
    show GatherDims.start _ (ix3 r j q) idx 1 + GatherDims.batchCoord _ (ix3 r j q) 1
      + GatherDims.offCoord _ (ix3 r j q) 1 = _
    rw [GatherDims.batchCoord_eq_zero _ _ _ List.not_mem_nil]
    unfold GatherDims.start
    rw [dif_neg (show (1 : Fin 2) ∉ ([0] : List (Fin 2)) by decide)]
    simp only [Nat.add_zero, Nat.zero_add]
    unfold GatherDims.offCoord
    rw [dif_pos ((GatherDims.mem_sKept _ _).mpr ⟨show (1 : Fin 2) ∉ ([0] : List (Fin 2)) by decide, List.not_mem_nil⟩)]
    rfl

end Idealize.ShloMosaic.HostIdxRJ
-- ==== Proof.RefValue.lean ====
/-
  The reference's two results are the specification.

  First result: the reference joins each node's spatial and structural rows into one row of 195 entries and multiplies
  by Wcᵀ. Position c < 64 of the joined row is spatial[r, c], position 64 + k is structural[r, k]; so the sum over the 195
  positions is the sum over the 64 spatial ones plus the sum over the 131 structural ones (`MeshSpec.sum_split`), which is
  how the specification writes it.
  Second result: the reference wraps negative neighbour words by 200000, gathers the three neighbour rows (each start
  word read signed and clamped into the table), adds them from zero, adds the node's own row, takes a quarter and
  multiplies by Waᵀ. On a table whose words read non-negative the wrap does nothing, so neighbour j's row is the row the
  word itself names, clamped: the specification's `rowOf`. Zero plus the three rows is the three rows added in order.
-/
import proofs.«406984_j80985903334295_3_alg».proof.Proof.Gen.ReferenceIdeal.Read
import proofs.«406984_j80985903334295_3_alg».proof.Proof.MeshSpec
import proofs.«406984_j80985903334295_3_alg».proof.Proof.NbrWords
import proofs.«406984_j80985903334295_3_alg».proof.Proof.LibGatherRowsAt
import Idealize.ShloMosaic.Lib.Pipeline.Value
import Idealize.ShloMosaic.Lib.ValueIdx
import Idealize.ShloMosaic.PureOps.Ideal.Laws

noncomputable section

open scoped BigOperators

namespace Cert.MeshRef

open Cert.ReferenceIdeal Cert.ReferenceIdeal.Facts₀ Cert.ReferenceIdeal.Read Idealize.ShloMosaic Idealize.ShloMosaic.ValueIdx
open Cert.MeshSpec

/-! ## The first result -/

/-- The joined row at a position below 64 is the spatial entry. -/
theorem joined_left (x0 : FVec Ideal S200000x64 .f32) (x1 : FVec Ideal S200000x131 .f32) (i : S200000x256.Idx) (k : Fin 64) :
    val_main_v0 (F := Ideal) x0 x1 (lidx_main_v1 i (⟨k.val, by omega⟩ : Fin 195)) = x0 (ix2 (i 0) k) := by
  unfold val_main_v0
  exact concatenate_pair_apply_left (1 : Fin S200000x195.rank) x0 x1 _ _ rfl (ix2 (i 0) k) (fun b => match b with
    | ⟨0, _⟩ => rfl
    | ⟨1, _⟩ => rfl)

/-- The joined row at position 64 + k is the structural entry k. -/
theorem joined_right (x0 : FVec Ideal S200000x64 .f32) (x1 : FVec Ideal S200000x131 .f32) (i : S200000x256.Idx) (k : Fin 131) :
    val_main_v0 (F := Ideal) x0 x1 (lidx_main_v1 i (⟨64 + k.val, by omega⟩ : Fin 195)) = x1 (ix2 (i 0) k) := by
  unfold val_main_v0
  exact concatenate_pair_apply_right (1 : Fin S200000x195.rank) x0 x1 _ _ rfl rfl (ix2 (i 0) k) (fun b => match b with
    | ⟨0, _⟩ => fun _ => rfl
    | ⟨1, _⟩ => fun hne => absurd rfl hne) (by show k.val + 64 = 64 + k.val; omega)

/-- The reference's first result is the specification's. -/
theorem first_eq (x0 : FVec Ideal S200000x64 .f32) (x1 : FVec Ideal S200000x131 .f32) (x3 : FVec Ideal S256x195 .f32)
    (x4 : FVec Ideal S256 .f32) : val_main_v4 (F := Ideal) x0 x1 x3 x4 = conv x0 x1 x3 x4 := by
  funext i
  rw [val_main_v4_apply, val_main_v1_apply, val_main_v3_apply, val_main_v2_apply, Ideal.addf_def, sum_split]
  unfold conv convAt
  refine congrArg₂ (· + ·) (congrArg₂ (· + ·) (Finset.sum_congr rfl fun k _ => ?_) (Finset.sum_congr rfl fun k _ => ?_)) ?_
  · rw [joined_left]
    exact congrArg (x0 (ix2 (i 0) k) * x3 ·) (funext fun a => Fin.ext (by match a with | ⟨0, _⟩ => rfl | ⟨1, _⟩ => rfl))
  · rw [joined_right]
    exact congrArg (x1 (ix2 (i 0) k) * x3 ·) (funext fun a => Fin.ext (by match a with | ⟨0, _⟩ => rfl | ⟨1, _⟩ => rfl))
  · exact congrArg x4 (funext fun a => Fin.ext (by match a with | ⟨0, _⟩ => rfl))

/-! ## The second result -/

/-- The reference's gathered neighbour row j of node r, entry k, on a table of non-negative words: the structural array
    at the row the word names. -/
theorem gathered_apply (x1 : FVec Ideal S200000x131 .f32) (x2 : IVec S200000x3 32) (h : ∀ i, 0 ≤ (x2 i).toInt)
    (r : Fin 200000) (j : Fin 3) (k : Fin 131) :
    val_main_v11 (F := Ideal) x1 x2 (ix3 r j k) = x1 (ix2 (rowOf (x2 (ix2 r j))) k) := by
  unfold val_main_v11
  refine (HostIdxRJ.gather_rows_at_apply (by omega) gather_S200000x131_S200000x3x1_S200000x3x131_2_0_n_n_0_2_1131
    rfl rfl rfl rfl rfl rfl rfl x1 (val_main_v10 (F := Ideal) x2) r j k).trans ?_
  have e : val_main_v10 (F := Ideal) x2 (ix3 r j (0 : Fin 1)) = x2 (ix2 r j) := by
    rw [val_main_v10_apply, val_main_v9_apply]
    have hi : idx_main_v10 (ix3 r j (0 : Fin 1)) = ix2 r j :=
      funext fun a => Fin.ext (by match a with | ⟨0, _⟩ => rfl | ⟨1, _⟩ => rfl)
    rw [hi]
    exact NbrWords.wrap_of_nonneg _ (h _)
  refine congrArg x1 (funext fun a => Fin.ext ?_)
  match a with
  | ⟨0, _⟩ =>
    show min (val_main_v10 (F := Ideal) x2 (ix3 r j (0 : Fin 1))).toInt.toNat (200000 - 1) = min (x2 (ix2 r j)).toInt.toNat 199999
    rw [e]
  | ⟨1, _⟩ => rfl

/-- The reference's averaged feature k of node r is the specification's. -/
theorem mixed_apply (x1 : FVec Ideal S200000x131 .f32) (x2 : IVec S200000x3 32) (h : ∀ i, 0 ≤ (x2 i).toInt)
    (r : Fin 200000) (k : Fin 131) : val_main_v15 (F := Ideal) x1 x2 (ix2 r k) = mixAt x1 x2 r k := by
  have e0 : idx_main_v12 (ix2 r k) (0 : Fin 3) = ix3 r (0 : Fin 3) k :=
    funext fun a => Fin.ext (by match a with | ⟨0, _⟩ => rfl | ⟨1, _⟩ => rfl | ⟨2, _⟩ => rfl)
  have e1 : idx_main_v12 (ix2 r k) (1 : Fin 3) = ix3 r (1 : Fin 3) k :=
    funext fun a => Fin.ext (by match a with | ⟨0, _⟩ => rfl | ⟨1, _⟩ => rfl | ⟨2, _⟩ => rfl)
  have e2 : idx_main_v12 (ix2 r k) (2 : Fin 3) = ix3 r (2 : Fin 3) k :=
    funext fun a => Fin.ext (by match a with | ⟨0, _⟩ => rfl | ⟨1, _⟩ => rfl | ⟨2, _⟩ => rfl)
  rw [val_main_v15_apply, val_main_v13_apply, val_main_v12_apply, val_main_v14_apply, val_main_cst_1_apply,
    val_main_cst_apply, Fin.sum_univ_three, e0, e1, e2, gathered_apply x1 x2 h, gathered_apply x1 x2 h,
    gathered_apply x1 x2 h]
  simp only [Ideal.addf_def, Ideal.mulf_def, Ideal.ofBits_def, Ideal.ofBits_zero_f32, zero_add]
  rfl

/-- The reference's second result is the specification's, on a neighbour table of non-negative words. -/
theorem second_eq (x1 : FVec Ideal S200000x131 .f32) (x2 : IVec S200000x3 32) (x5 : FVec Ideal S256x131 .f32)
    (x6 : FVec Ideal S256 .f32) (h : ∀ i, 0 ≤ (x2 i).toInt) :
    val_main_v19 (F := Ideal) x1 x2 x5 x6 = agg x1 x2 x5 x6 := by
  funext i
  obtain ⟨r, o, rfl⟩ : ∃ (r : Fin 200000) (o : Fin 256), i = ix2 r o := ⟨i 0, i 1, eq_ix2 i⟩
  rw [val_main_v19_apply, val_main_v16_apply, val_main_v18_apply, val_main_v17_apply, Ideal.addf_def]
  show _ = ∑ k : Fin 131, mixAt x1 x2 r k * x5 (ix2 o k) + x6 (ix1 o)
  refine congrArg₂ (· + ·) (Finset.sum_congr rfl fun k _ => ?_) ?_
  · have hl : lidx_main_v16 (ix2 r o) k = ix2 r k :=
      funext fun a => Fin.ext (by match a with | ⟨0, _⟩ => rfl | ⟨1, _⟩ => rfl)
    have hr : ridx_main_v16 (ix2 r o) k = ix2 o k :=
      funext fun a => Fin.ext (by match a with | ⟨0, _⟩ => rfl | ⟨1, _⟩ => rfl)
    rw [hl, hr, mixed_apply x1 x2 h]
  · exact congrArg x6 (funext fun a => Fin.ext (by match a with | ⟨0, _⟩ => rfl))

end Cert.MeshRef

end
-- ==== Proof.NbrRange.lean ====
/-
  What the precondition says of the neighbour table.

  The precondition ends in `jnp.all((neighbour >= 0) & (neighbour < 200000))`: an and-reduction of the one-bit array
  whose element at (r, j) is the and of the two signed comparisons of neighbour[r, j] with 0 and with 200000. That the
  whole predicate is 1 makes that reduction 1, hence every element of the array 1, hence both comparisons true at every
  (r, j): every neighbour word, read signed, is a row number of the 200000-row feature table.
-/
import proofs.«406984_j80985903334295_3_alg».proof.Pre_finite_inputs
import Idealize.ShloMosaic.Lib.ReduceAll
import Idealize.ShloMosaic.Lib.ValueIdx
import Idealize.ShloMosaic.Lib.StableHlo.Predicate

noncomputable section

namespace Cert.NbrRange

open Idealize.ShloMosaic Idealize.ShloMosaic.ValueIdx Cert.Pre_finite_inputs

instance : Subsingleton S_.Idx := ⟨fun a b => funext fun d => d.elim0⟩

variable {F : FTy → Type} [FloatOps F] [Cert.Pre_finite_inputs.Facts]

/-- Under the precondition every neighbour word, read signed, lies in [0, 200000). -/
theorem nbr_in_range (a0 : FVec F S200000x64 .f32) (a1 : FVec F S200000x131 .f32) (a2 : IVec S200000x3 32)
    (a3 : FVec F S256x195 .f32) (a4 : FVec F S256 .f32) (a5 : FVec F S256x131 .f32) (a6 : FVec F S256 .f32)
    (h : fn (F := F) a0 a1 a2 a3 a4 a5 a6 = fun _ => 1#1) (i : S200000x3.Idx) :
    0 ≤ (a2 i).toInt ∧ (a2 i).toInt < 200000 := by
  have h0 := congrFun h ix0
  dsimp only [fn, fn_part1, fn_part2] at h0
  have h1 := (IntOp.andi_eq_one.1 h0).2
  have h2 := Host.reduce_andi_all _ _ _ _ ix0 h1 i
  obtain ⟨hge, hlt⟩ := IntOp.andi_eq_one.1 h2
  have hge' := IntOp.cmpi_sge.1 hge
  have hlt' := IntOp.cmpi_slt.1 hlt
  rw [StableHlo.Predicate.bcast_scalar _ Facts.h_S_] at hge' hlt'
  have e0 : (0#32 : BitVec 32).toInt = 0 := by decide
  have e1 : (200000#32 : BitVec 32).toInt = 200000 := by decide
  change (0#32 : BitVec 32).toInt ≤ _ at hge'
  change _ < (200000#32 : BitVec 32).toInt at hlt'
  rw [e0] at hge'
  rw [e1] at hlt'
  exact ⟨hge', hlt'⟩

end Cert.NbrRange

end
-- ==== Proof.lean ====
/-
  The certificate: a two-headed linear layer over a mesh of 200000 nodes, tiled 2000 nodes at a time, against its
  whole-array reference, over the extended reals.

  Both programs compute, for node r and output channel o,
    first  result = ( sum_{k < 64} spatial[r, k] * Wc[o, k] + sum_{k < 131} structural[r, k] * Wc[o, 64 + k] ) + bc[o]
    second result = sum_{k < 131} ( (structural[r, k] + structural[n0, k] + structural[n1, k] + structural[n2, k]) / 4 ) * Wa[o, k] + ba[o]
  where n_j is the row neighbour[r, j] names (Proof/MeshSpec.lean).
  The kernel splits Wc's columns and multiplies the spatial and the structural tile separately, where the reference
  multiplies the joined 195-entry row: a sum over 195 positions regrouped as 64 + 131, which holds for extended reals
  with no finiteness. The kernel clips the neighbour words into the table before gathering; the reference wraps negative
  words by the table's length and lets the gather clamp. On words that read in [0, 200000) (the precondition) both read
  the row the word names; in fact the two agree whenever the words read non-negative, and only that half is used.
  The run of the kernel is read off its tiles (Proof/KernelTiles.lean, KernelArrays.lean: each result array as one
  function of the arrays the region finds), those arrays off the arguments (HostWeights.lean, HostNbr.lean), and the
  reference's run off its operations (RefValue.lean).
-/
import proofs.«406984_j80985903334295_3_alg».proof.Defs
import proofs.«406984_j80985903334295_3_alg».proof.Proof.Gen.Kernel
import proofs.«406984_j80985903334295_3_alg».proof.Proof.Gen.Kernel.Skeleton
import proofs.«406984_j80985903334295_3_alg».proof.Proof.Gen.Kernel.Launch
import proofs.«406984_j80985903334295_3_alg».proof.Proof.Gen.Kernel.Points
import proofs.«406984_j80985903334295_3_alg».proof.Proof.Gen.Kernel.Frame
import proofs.«406984_j80985903334295_3_alg».proof.Proof.Gen.KernelIdeal
import proofs.«406984_j80985903334295_3_alg».proof.Proof.Gen.KernelIdeal.Skeleton
import proofs.«406984_j80985903334295_3_alg».proof.Proof.Gen.KernelIdeal.Launch
import proofs.«406984_j80985903334295_3_alg».proof.Proof.Gen.KernelIdeal.Points
import proofs.«406984_j80985903334295_3_alg».proof.Proof.Gen.KernelIdeal.Frame
import proofs.«406984_j80985903334295_3_alg».proof.Proof.Gen.ReferenceIdeal
import proofs.«406984_j80985903334295_3_alg».proof.Proof.Gen.Pre_finite_inputs
import proofs.«406984_j80985903334295_3_alg».proof.Proof.Gen.KernelIdeal.Value
import proofs.«406984_j80985903334295_3_alg».proof.Proof.Gen.ReferenceIdeal.Run
import proofs.«406984_j80985903334295_3_alg».proof.Proof.Gen.ReferenceIdeal.Read
import proofs.«406984_j80985903334295_3_alg».proof.Proof.KernelValue
import proofs.«406984_j80985903334295_3_alg».proof.Proof.RefValue
import proofs.«406984_j80985903334295_3_alg».proof.Proof.NbrRange
import Idealize.ShloMosaic.Adequacy
import Idealize.ShloMosaic.Init

noncomputable section

namespace Cert.Proof

open Idealize.ShloMosaic Idealize.SL.Sem

/-- The word-level kernel runs and leaves its arguments as they were. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference runs and leaves its arguments as they were: its run, the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- From memories that agree on the arguments, with every neighbour word a row number, both programs end with the
    specification's two arrays: the kernel's by its tiles, the reference's by its operations. -/
theorem algebraic : Cert.algebraic_KernelIdeal_ReferenceIdeal := by
  intro m ρ m' ρ' hpre hagree
  refine ⟨_, _, Cert.MeshKernel.run m ρ, ?_⟩
  refine (θ_run Cert.ReferenceIdeal.defs _ _).mono (fun _ h c => ?_) (Cert.ReferenceIdeal.Value.run (F := Ideal) m' ρ')
  obtain ⟨a0, a1, a2, a3, a4, a5, a6⟩ := hagree c
  have hnb : ∀ i, 0 ≤ (m' ((c.tc : Thread Cert.ReferenceIdeal.nD Cert.ReferenceIdeal.τ).loc Cert.ReferenceIdeal.main_arg2) i).toInt := by
    intro i
    rw [a2]
    exact (Cert.NbrRange.nbr_in_range _ _ _ _ _ _ _ (hpre c) i).1
  refine ⟨(h c).1.trans ?_, (h c).2.1.trans ?_, (h c).2.2⟩
  · rw [Cert.ReferenceIdeal.Read.val_main_v4_eq, Cert.MeshRef.first_eq, a0, a1, a3, a4]
  · rw [Cert.ReferenceIdeal.Read.val_main_v19_eq, Cert.MeshRef.second_eq _ _ _ _ hnb, a1, a2, a5, a6]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
